-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S16x3x8x128 : Shape := ⟨4, ![16, 3, 8, 128]⟩
abbrev S1x3x512x512 : Shape := ⟨4, ![1, 3, 512, 512]⟩
abbrev S1x3x8x128 : Shape := ⟨4, ![1, 3, 8, 128]⟩
abbrev S3x512x512 : Shape := ⟨3, ![3, 512, 512]⟩
abbrev S3x512x1 : Shape := ⟨3, ![3, 512, 1]⟩
abbrev S3 : Shape := ⟨1, ![3]⟩
abbrev S3x1x512 : Shape := ⟨3, ![3, 1, 512]⟩
abbrev S3x1x1 : Shape := ⟨3, ![3, 1, 1]⟩
abbrev S3x8x128 : Shape := ⟨3, ![3, 8, 128]⟩
abbrev S16x3x1x1 : Shape := ⟨4, ![16, 3, 1, 1]⟩
abbrev S16x3 : Shape := ⟨2, ![16, 3]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x8x128, .f32⟩
  | .hbm, ⟨3, _⟩ => ⟨S16x3x8x128, .f32⟩
  | .hbm, ⟨4, _⟩ => ⟨S16x3x1x1, .f32⟩
  | .hbm, ⟨5, _⟩ => ⟨S16x3, .f32⟩
  | .hbm, ⟨6, _⟩ => ⟨S16x3x1x1, .f32⟩
  | .hbm, ⟨7, _⟩ => ⟨S16x3, .f32⟩
  | .hbm, ⟨8, _⟩ => ⟨S_, .f32⟩
  | .hbm, ⟨9, _⟩ => ⟨S16x3, .f32⟩
  | .hbm, ⟨10, _⟩ => ⟨S16x3, .f32⟩
  | .hbm, ⟨11, _⟩ => ⟨S16x3, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x3x8x128, .f32⟩
  | .local _ .vmem, ⟨5, _⟩ => ⟨S1x3x8x128, .f32⟩
  | .local _ .vmem, ⟨6, _⟩ => ⟨S1x3x8x128, .f32⟩
  | .local _ .vmem, ⟨7, _⟩ => ⟨S1x3x8x128, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  rotates_S3x512x512_d2 : S3x512x512.Rotates 2 none
  slices_S3x512x512_o0_0_0_S3x512x1 : S3x512x512.Slices ![0, 0, 0] S3x512x1
  slices_S3x512x512_o0_0_1_S3x512x1 : S3x512x512.Slices ![0, 0, 1] S3x512x1
  reduces_S3x512x512_S3 : S3x512x512.Reduces [1, 2] S3
  reduces_S3x512x1_S3 : S3x512x1.Reduces [1, 2] S3
  rotates_S3x512x512_d1 : S3x512x512.Rotates 1 none
  slices_S3x512x512_o0_0_0_S3x1x512 : S3x512x512.Slices ![0, 0, 0] S3x1x512
  slices_S3x512x512_o0_1_0_S3x1x512 : S3x512x512.Slices ![0, 1, 0] S3x1x512
  reduces_S3x1x512_S3 : S3x1x512.Reduces [1, 2] S3
  shapeCasts_S3_S3x1x1 : S3.ShapeCasts S3x1x1
  shapeCasts_S3x1x1_S3x1x1 : S3x1x1.ShapeCasts S3x1x1
  broadcasts_S3x1x1_S3x8x128 : S3x1x1.Broadcasts S3x8x128
  inb_S1x3x8x128_S1x3x8x128_0_0_0_0 : ∀ a, (![0, 0, 0, 0] : Fin 4 → Nat) a + S1x3x8x128.size a ≤ S1x3x8x128.size a
  h_S1x3x8x128 : 0 < S1x3x8x128.numel
  shapeCasts_S1x3x8x128_S3x8x128 : S1x3x8x128.ShapeCasts S3x8x128
  shapeCasts_S3x8x128_S1x3x8x128 : S3x8x128.ShapeCasts S1x3x8x128
  slices_S16x3x8x128_S16x3x1x1_0_0_0_0 : S16x3x8x128.Slices ![0, 0, 0, 0] S16x3x1x1
  shapeCasts_S16x3x1x1_S16x3 : S16x3x1x1.ShapeCasts S16x3
  bcast_S_S16x3 : S_.BroadcastsInDim S16x3 (![] : Fin 0 → Fin S16x3.rank)
  reducesTo_S16x3_S_d0_1 : S16x3.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x128.size a ≤ S16x3x8x128.size a
  hwx0_2 : ∀ i : grid0.Coords, EltTy.bits .f32 = 32 ∨ (Rect.block (s := S16x3x8x128) S1x3x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x8x128.size a ≤ S16x3x8x128.size a
  hwx0_3 : ∀ i : grid0.Coords, EltTy.bits .f32 = 32 ∨ (Rect.block (s := S16x3x8x128) S1x3x8x128.size (cc0_transform_3 i) (hinb0_3 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x3x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x3x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S16x3x512x1 : Shape := ⟨4, ![16, 3, 512, 1]⟩
abbrev S16x3x512x511 : Shape := ⟨4, ![16, 3, 512, 511]⟩
abbrev S16x3x1x512 : Shape := ⟨4, ![16, 3, 1, 512]⟩
abbrev S16x3x511x512 : Shape := ⟨4, ![16, 3, 511, 512]⟩
abbrev S16x3x1024x512 : Shape := ⟨4, ![16, 3, 1024, 512]⟩
abbrev S_ : Shape := ⟨0, ![]⟩
abbrev S16x3 : Shape := ⟨2, ![16, 3]⟩

abbrev nBuf : Space → Nat
  | .hbm => 75
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x1, .f32⟩
  | .hbm, ⟨3, _⟩ => ⟨S16x3x512x1, .f32⟩
  | .hbm, ⟨4, _⟩ => ⟨S16x3x512x1, .f32⟩
  | .hbm, ⟨5, _⟩ => ⟨S16x3x512x511, .f32⟩
  | .hbm, ⟨6, _⟩ => ⟨S16x3x512x511, .f32⟩
  | .hbm, ⟨7, _⟩ => ⟨S16x3x512x511, .f32⟩
  | .hbm, ⟨8, _⟩ => ⟨S16x3x512x512, .f32⟩
  | .hbm, ⟨9, _⟩ => ⟨S16x3x1x512, .f32⟩
  | .hbm, ⟨10, _⟩ => ⟨S16x3x1x512, .f32⟩
  | .hbm, ⟨11, _⟩ => ⟨S16x3x1x512, .f32⟩
  | .hbm, ⟨12, _⟩ => ⟨S16x3x511x512, .f32⟩
  | .hbm, ⟨13, _⟩ => ⟨S16x3x511x512, .f32⟩
  | .hbm, ⟨14, _⟩ => ⟨S16x3x511x512, .f32⟩
  | .hbm, ⟨15, _⟩ => ⟨S16x3x512x512, .f32⟩
  | .hbm, ⟨16, _⟩ => ⟨S16x3x512x1, .f32⟩
  | .hbm, ⟨17, _⟩ => ⟨S16x3x512x1, .f32⟩
  | .hbm, ⟨18, _⟩ => ⟨S16x3x512x1, .f32⟩
  | .hbm, ⟨19, _⟩ => ⟨S16x3x512x511, .f32⟩
  | .hbm, ⟨20, _⟩ => ⟨S16x3x512x511, .f32⟩
  | .hbm, ⟨21, _⟩ => ⟨S16x3x512x511, .f32⟩
  | .hbm, ⟨22, _⟩ => ⟨S16x3x512x512, .f32⟩
  | .hbm, ⟨23, _⟩ => ⟨S16x3x1x512, .f32⟩
  | .hbm, ⟨24, _⟩ => ⟨S16x3x1x512, .f32⟩
  | .hbm, ⟨25, _⟩ => ⟨S16x3x1x512, .f32⟩
  | .hbm, ⟨26, _⟩ => ⟨S16x3x511x512, .f32⟩
  | .hbm, ⟨27, _⟩ => ⟨S16x3x511x512, .f32⟩
  | .hbm, ⟨28, _⟩ => ⟨S16x3x511x512, .f32⟩
  | .hbm, ⟨29, _⟩ => ⟨S16x3x512x512, .f32⟩
  | .hbm, ⟨30, _⟩ => ⟨S16x3x1024x512, .f32⟩
  | .hbm, ⟨31, _⟩ => ⟨S16x3x1024x512, .f32⟩
  | .hbm, ⟨32, _⟩ => ⟨S16x3x1024x512, .f32⟩
  | .hbm, ⟨33, _⟩ => ⟨S16x3x1024x512, .f32⟩
  | .hbm, ⟨34, _⟩ => ⟨S_, .f32⟩
  | .hbm, ⟨35, _⟩ => ⟨S16x3x1024x512, .f32⟩
  | .hbm, ⟨36, _⟩ => ⟨S16x3x1024x512, .i1⟩
  | .hbm, ⟨37, _⟩ => ⟨S_, .f32⟩
  | .hbm, ⟨38, _⟩ => ⟨S16x3x1024x512, .f32⟩
  | .hbm, ⟨39, _⟩ => ⟨S16x3x1024x512, .f32⟩
  | .hbm, ⟨40, _⟩ => ⟨S16x3x1024x512, .f32⟩
  | .hbm, ⟨41, _⟩ => ⟨S_, .f32⟩
  | .hbm, ⟨42, _⟩ => ⟨S16x3x1024x512, .f32⟩
  | .hbm, ⟨43, _⟩ => ⟨S16x3x1024x512, .f32⟩
  | .hbm, ⟨44, _⟩ => ⟨S16x3x1024x512, .f32⟩
  | .hbm, ⟨45, _⟩ => ⟨S_, .f32⟩
  | .hbm, ⟨46, _⟩ => ⟨S16x3, .f32⟩
  | .hbm, ⟨47, _⟩ => ⟨S_, .f32⟩
  | .hbm, ⟨48, _⟩ => ⟨S16x3, .f32⟩
  | .hbm, ⟨49, _⟩ => ⟨S16x3, .f32⟩
  | .hbm, ⟨50, _⟩ => ⟨S16x3x1024x512, .f32⟩
  | .hbm, ⟨51, _⟩ => ⟨S_, .f32⟩
  | .hbm, ⟨52, _⟩ => ⟨S16x3x1024x512, .f32⟩
  | .hbm, ⟨53, _⟩ => ⟨S16x3x1024x512, .i1⟩
  | .hbm, ⟨54, _⟩ => ⟨S_, .f32⟩
  | .hbm, ⟨55, _⟩ => ⟨S16x3x1024x512, .f32⟩
  | .hbm, ⟨56, _⟩ => ⟨S16x3x1024x512, .f32⟩
  | .hbm, ⟨57, _⟩ => ⟨S16x3x1024x512, .f32⟩
  | .hbm, ⟨58, _⟩ => ⟨S_, .f32⟩
  | .hbm, ⟨59, _⟩ => ⟨S16x3x1024x512, .f32⟩
  | .hbm, ⟨60, _⟩ => ⟨S16x3x1024x512, .f32⟩
  | .hbm, ⟨61, _⟩ => ⟨S16x3x1024x512, .f32⟩
  | .hbm, ⟨62, _⟩ => ⟨S_, .f32⟩
  | .hbm, ⟨63, _⟩ => ⟨S16x3, .f32⟩
  | .hbm, ⟨64, _⟩ => ⟨S_, .f32⟩
  | .hbm, ⟨65, _⟩ => ⟨S16x3, .f32⟩
  | .hbm, ⟨66, _⟩ => ⟨S16x3, .f32⟩
  | .hbm, ⟨67, _⟩ => ⟨S_, .f32⟩
  | .hbm, ⟨68, _⟩ => ⟨S16x3, .f32⟩
  | .hbm, ⟨69, _⟩ => ⟨S16x3, .f32⟩
  | .hbm, ⟨70, _⟩ => ⟨S16x3, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst : Ref sig .tc := ⟨.hbm, 34, rfl⟩
abbrev main_v32 : Ref sig .tc := ⟨.hbm, 35, rfl⟩
abbrev main_v33 : Ref sig .tc := ⟨.hbm, 36, rfl⟩
abbrev main_cst_0 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_6 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_7 : Ref sig .tc := ⟨.hbm, 62, rfl⟩
abbrev main_v52 : Ref sig .tc := ⟨.hbm, 63, rfl⟩
abbrev main_cst_8 : Ref sig .tc := ⟨.hbm, 64, rfl⟩
abbrev main_v53 : Ref sig .tc := ⟨.hbm, 65, rfl⟩
abbrev main_v54 : Ref sig .tc := ⟨.hbm, 66, rfl⟩
abbrev main_cst_9 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_10 : Ref sig .tc := ⟨.hbm, 71, rfl⟩
abbrev main_v58 : Ref sig .tc := ⟨.hbm, 72, rfl⟩
abbrev main_cst_11 : Ref sig .tc := ⟨.hbm, 73, rfl⟩
abbrev main_v59 : Ref sig .tc := ⟨.hbm, 74, rfl⟩

abbrev nD : Nat := 1
abbrev τ : Topo := Topo.v7x

variable {F : FTy → Type} [FloatOps F]

class Facts₀ : Prop where
  slices_S16x3x512x512_S16x3x512x1_0_0_0_1 : S16x3x512x512.Slices ![0, 0, 0, 1] S16x3x512x1
  slices_S16x3x512x512_S16x3x512x1_0_0_0_0 : S16x3x512x512.Slices ![0, 0, 0, 0] S16x3x512x1
  slices_S16x3x512x512_S16x3x512x511_0_0_0_0 : S16x3x512x512.Slices ![0, 0, 0, 0] S16x3x512x511
  slices_S16x3x512x512_S16x3x512x511_0_0_0_1 : S16x3x512x512.Slices ![0, 0, 0, 1] S16x3x512x511
  concatenates_S16x3x512x1_S16x3x512x511_S16x3x512x512_d3 : Shape.Concatenates [S16x3x512x1, S16x3x512x511] S16x3x512x512 3
  slices_S16x3x512x512_S16x3x1x512_0_0_1_0 : S16x3x512x512.Slices ![0, 0, 1, 0] S16x3x1x512
  slices_S16x3x512x512_S16x3x1x512_0_0_0_0 : S16x3x512x512.Slices ![0, 0, 0, 0] S16x3x1x512
  slices_S16x3x512x512_S16x3x511x512_0_0_0_0 : S16x3x512x512.Slices ![0, 0, 0, 0] S16x3x511x512
  slices_S16x3x512x512_S16x3x511x512_0_0_1_0 : S16x3x512x512.Slices ![0, 0, 1, 0] S16x3x511x512
  concatenates_S16x3x1x512_S16x3x511x512_S16x3x512x512_d2 : Shape.Concatenates [S16x3x1x512, S16x3x511x512] S16x3x512x512 2
  concatenates_S16x3x512x512_S16x3x512x512_S16x3x1024x512_d2 : Shape.Concatenates [S16x3x512x512, S16x3x512x512] S16x3x1024x512 2
  bcast_S_S16x3x1024x512 : S_.BroadcastsInDim S16x3x1024x512 (![] : Fin 0 → Fin S16x3x1024x512.rank)
  reducesTo_S16x3x1024x512_S16x3_d2_3 : S16x3x1024x512.ReducesTo [2, 3] S16x3
  h_S_ : 0 < S_.numel
  bcast_S_S16x3 : S_.BroadcastsInDim S16x3 (![] : Fin 0 → Fin S16x3.rank)
  reducesTo_S16x3_S_d0_1 : S16x3.ReducesTo [0, 1] S_

variable [Facts₀]

class Facts : Prop extends Facts₀ where

variable [Facts]
-- ==== Proof.Finite.lean ====
/-
  What the precondition gives: every entry of both argument arrays is the image of a real.

  The printed predicate is the conjunction of two `all`-reductions of `|a| < +∞` over the two arrays. Where it is all ones,
  every entry's absolute value — the larger of the entry and its negation on the extended reals — is below `⊤`, which leaves
  neither `⊤` nor `⊥`: the entry is a real.
-/
import proofs.«430997_j56822417326370_3_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx

variable [Cert.Pre_finite_inputs.Facts]

/-- An extended real whose absolute value is below `+∞` is a real. -/
theorem exists_real_of_abs_lt_top (a : EReal) (h : max a (-a) < ⊤) : ∃ r : ℝ, a = (r : EReal) := by
  induction a using EReal.rec with
  | bot => simp at h
  | top => simp at h
  | coe r => exact ⟨r, rfl⟩

/-- The result shape of the two reductions has rank zero, hence one index. -/
private instance subsingleton_idx : Subsingleton Cert.Pre_finite_inputs.S_.Idx :=
  ⟨fun _ _ => funext fun d => d.elim0⟩

/-- The pattern `0x7F800000` (all-ones exponent, zero significand, sign clear) denotes `+∞`. -/
private theorem ofBits_inf : Ideal.ofBits .f32 0x7F800000#32 = ⊤ := by
  simp [Ideal.ofBits, Ideal.ieee]

/-- One entry: where the comparison `|a| < +∞` is 1, `a` is a real. -/
private theorem real_of_elem (a : Ideal .f32)
    (h : FloatOps.cmpf .olt (FloatOps.hostAbsf a) (FloatOps.ofBits (F := Ideal) .f32 0x7F800000#32) = 1#1) :
    ∃ r : ℝ, a = (r : EReal) := by
  apply exists_real_of_abs_lt_top
  have h' : Ideal.cmp .olt (max a (-a)) (Ideal.ofBits .f32 0x7F800000#32) = 1#1 := h
  rw [ofBits_inf] at h'
  by_contra hn
  simp [Ideal.cmp, hn] at h'

/-- Where the printed precondition holds, both argument arrays are images of real arrays. -/
theorem real_of_pre (x t : FVec Ideal Cert.Pre_finite_inputs.S16x3x512x512 .f32)
    (h : Cert.Pre_finite_inputs.fn (F := Ideal) x t = fun _ => 1#1) :
    (∃ xr : Cert.Pre_finite_inputs.S16x3x512x512.Idx → ℝ, x = fun i => ((xr i : ℝ) : EReal))
      ∧ ∃ tr : Cert.Pre_finite_inputs.S16x3x512x512.Idx → ℝ, t = fun i => ((tr i : ℝ) : EReal) := by
  have h0 := congrFun h ValueIdx.ix0
  dsimp only [Cert.Pre_finite_inputs.fn] at h0
  obtain ⟨hx, ht⟩ := IntOp.andi_eq_one.1 h0
  have ex := fun i => Host.reduce_andi_all _ _ _ _ _ hx i
  have et := fun i => Host.reduce_andi_all _ _ _ _ _ ht i
  choose xr hxr using fun i => real_of_elem (x i) (ex i)
  choose tr htr using fun i => real_of_elem (t i) (et i)
  exact ⟨⟨xr, funext hxr⟩, ⟨tr, funext htr⟩⟩

end Cert.Finite

end
-- ==== Proof.Huber.lean ====
/-
  The mathematics shared by both programs, free of either program's text.

  For a real image plane `P : Fin 512 → Fin 512 → ℝ` both programs add up the Huber function (quadratic inside the unit
  interval, linear outside) of the plane's finite differences along its two axes, padded by reflection at the first column and
  the first row. One program forms the reflected differences directly; the other takes the differences AROUND the end of
  each axis (entry `k` minus its cyclic predecessor), adds up the Huber values of all of them, removes the one wrong column (row)
  and puts back the Huber values of the second column (row) — which, the Huber function being even, are those of the reflected
  first column (row). Over the reals the two totals are one number (`NK_eq_N`); on the extended reals the same holds once every
  entry is finite, because then every intermediate value is the image of a real (`hub_coe`, `coe_sum`).
-/
import Idealize.ShloMosaic.PureOps.Ideal
import Idealize.ShloMosaic.PureOps.Ideal.Laws
import Idealize.ShloMosaic.Lib.ValueIdx

noncomputable section

open scoped BigOperators

namespace Cert.Huber

open Idealize.ShloMosaic Idealize.ShloMosaic.ValueIdx

/-! ## The Huber function, on the reals and as the ideal operations spell it -/

/-- Huber's function with threshold one: half the square inside the unit interval, the absolute value less a half outside. -/
def hubR (r : ℝ) : ℝ := if |r| < 1 then (1 / 2 * r) * r else |r| - 1 / 2

/-- The same function as both programs spell it with the ideal instance's elementwise operations: a select on
    `|r| < 1.0` between `(0.5 · r) · r` and `|r| − 0.5`, the constants by their f32 words. -/
def hub (r : Ideal .f32) : Ideal .f32 :=
  Scalar.select (FloatOps.cmpf .olt (FloatOps.absf r) (FloatOps.ofBits .f32 0x3F800000#32))
    (FloatOps.mulf (FloatOps.mulf (FloatOps.ofBits .f32 0x3F000000#32) r) r)
    (FloatOps.subf (FloatOps.absf r) (FloatOps.ofBits .f32 0x3F000000#32))

/-- The word of `1.0` denotes the real one. -/
theorem ofBits_one : Ideal.ofBits .f32 0x3F800000#32 = ((1 : ℝ) : EReal) := by
  simp [Ideal.ofBits, Ideal.ieee, -EReal.coe_mul]; norm_num

/-- The word of `0.5` denotes the real one half. -/
theorem ofBits_half : Ideal.ofBits .f32 0x3F000000#32 = ((1 / 2 : ℝ) : EReal) := by
  simp [Ideal.ofBits, Ideal.ieee, -EReal.coe_mul]; norm_num

/-- The word of `+0.0` denotes zero. -/
theorem ofBits_zero : Ideal.ofBits .f32 0x00000000#32 = 0 := by
  simp [Ideal.ofBits, Ideal.ieee]

/-- On the image of a real the spelled function is the image of Huber's. -/
theorem hub_coe (r : ℝ) : hub (r : EReal) = ((hubR r : ℝ) : EReal) := by
  -- the absolute value of the image of a real is the image of its absolute value
  have habs : max (r : EReal) (-(r : EReal)) = ((|r| : ℝ) : EReal) := by
    rw [abs_eq_max_neg, EReal.coe_strictMono.monotone.map_max, EReal.coe_neg]
  unfold hub hubR
  simp only [Scalar.select, Ideal.cmpf_def, Ideal.absf_def, Ideal.cmp, Ideal.ofBits_def, Ideal.mulf_def, Ideal.subf_def,
    ofBits_one, ofBits_half, habs]
  by_cases h : |r| < 1
  · have h' : ((|r| : ℝ) : EReal) < ((1 : ℝ) : EReal) := EReal.coe_lt_coe_iff.mpr h
    simp only [h, h', decide_true, BitVec.ofBool_true, if_true]
    rw [← EReal.coe_mul, ← EReal.coe_mul]
  · have h' : ¬ ((|r| : ℝ) : EReal) < ((1 : ℝ) : EReal) := fun hh => h (EReal.coe_lt_coe_iff.mp hh)
    simp only [h, h', decide_false, BitVec.ofBool_false, if_false]
    rw [if_neg (by decide), ← EReal.coe_sub]

/-- Huber's function is even. -/
theorem hubR_neg (r : ℝ) : hubR (-r) = hubR r := by
  simp only [hubR, abs_neg]
  split_ifs <;> ring

/-- The image of a finite sum of reals is the sum of the images. -/
theorem coe_sum {ι : Type*} (s : Finset ι) (f : ι → ℝ) : ((∑ i ∈ s, f i : ℝ) : EReal) = ∑ i ∈ s, ((f i : ℝ) : EReal) := by
  classical
  refine Finset.induction_on s ?_ ?_
  · simp
  · intro a t ha ih
    rw [Finset.sum_insert ha, Finset.sum_insert ha, EReal.coe_add, ih]

/-! ## A plane's differences: around the end, and reflected -/

/-- The cyclic predecessor of a coordinate of an axis of 512. -/
def pw (w : Fin 512) : Fin 512 := ⟨(w.val + 511) % 512, Nat.mod_lt _ (by norm_num)⟩

/-- Differences along a row taken around the end: the cyclic predecessor's entry minus the entry. -/
def rxR (P : Fin 512 → Fin 512 → ℝ) (h w : Fin 512) : ℝ := P h (pw w) - P h w
/-- Differences along a column taken around the end. -/
def ryR (P : Fin 512 → Fin 512 → ℝ) (h w : Fin 512) : ℝ := P (pw h) w - P h w

/-- Differences along a row with the first column reflected: column 0 holds entry 1 minus entry 0, column `w ≥ 1` entry
    `w − 1` minus entry `w`. -/
def gxR (P : Fin 512 → Fin 512 → ℝ) (h w : Fin 512) : ℝ := if w.val = 0 then P h 1 - P h 0 else P h (pw w) - P h w
/-- Differences along a column with the first row reflected. -/
def gyR (P : Fin 512 → Fin 512 → ℝ) (h w : Fin 512) : ℝ := if h.val = 0 then P 1 w - P 0 w else P (pw h) w - P h w

/-- The total of Huber's function over both reflected difference planes. -/
def N (P : Fin 512 → Fin 512 → ℝ) : ℝ := (∑ h, ∑ w, hubR (gxR P h w)) + ∑ h, ∑ w, hubR (gyR P h w)

/-- The same total as the cyclic differences give it: all of them, less the wrong first column (row), plus the second. -/
def NK (P : Fin 512 → Fin 512 → ℝ) : ℝ :=
  (((∑ h, ∑ w, hubR (rxR P h w)) - ∑ h, hubR (rxR P h 0)) + ∑ h, hubR (rxR P h 1))
    + (((∑ h, ∑ w, hubR (ryR P h w)) - ∑ w, hubR (ryR P 0 w)) + ∑ w, hubR (ryR P 1 w))

/-- Two families over an axis of 512 that agree off the first coordinate: the total of one is the total of the other
    with its first term exchanged. -/
private theorem sum_fix (f g : Fin 512 → ℝ) (hne : ∀ w : Fin 512, w ≠ 0 → f w = g w) :
    ∑ w, f w = (∑ w, g w) - g 0 + f 0 := by
  rw [← Finset.add_sum_erase Finset.univ f (Finset.mem_univ 0), ← Finset.add_sum_erase Finset.univ g (Finset.mem_univ 0),
    Finset.sum_congr rfl (fun w hw => hne w (Finset.ne_of_mem_erase hw))]
  ring

/-- The cyclic predecessor of the second coordinate is the first. -/
private theorem pw_one : pw 1 = 0 := by decide

/-- THE LAW that joins the two programs: correcting the cyclic total gives the reflected one. -/
theorem NK_eq_N (P : Fin 512 → Fin 512 → ℝ) : NK P = N P := by
  -- a row: off the first column the two differences are one; at it, the reflected one is minus the cyclic one of column 1
  have hx : ∀ h, ∑ w, hubR (gxR P h w) = (∑ w, hubR (rxR P h w)) - hubR (rxR P h 0) + hubR (rxR P h 1) := by
    intro h
    rw [sum_fix (fun w => hubR (gxR P h w)) (fun w => hubR (rxR P h w))]
    · have h0 : gxR P h 0 = -(rxR P h 1) := by simp [gxR, rxR, pw_one]
      simp only [h0, hubR_neg]
    · intro w hw
      have : w.val ≠ 0 := fun e => hw (Fin.ext e)
      simp only [gxR, rxR, if_neg this]
  -- a column: the same along the other axis
  have hy : ∀ w, ∑ h, hubR (gyR P h w) = (∑ h, hubR (ryR P h w)) - hubR (ryR P 0 w) + hubR (ryR P 1 w) := by
    intro w
    rw [sum_fix (fun h => hubR (gyR P h w)) (fun h => hubR (ryR P h w))]
    · have h0 : gyR P 0 w = -(ryR P 1 w) := by simp [gyR, ryR, pw_one]
      simp only [h0, hubR_neg]
    · intro h hh
      have : h.val ≠ 0 := fun e => hh (Fin.ext e)
      simp only [gyR, ryR, if_neg this]
  have e1 : ∑ h, ∑ w, hubR (gxR P h w)
      = (∑ h, ∑ w, hubR (rxR P h w)) - ∑ h, hubR (rxR P h 0) + ∑ h, hubR (rxR P h 1) := by
    simp only [hx, Finset.sum_add_distrib, Finset.sum_sub_distrib]
  have e2 : ∑ h, ∑ w, hubR (gyR P h w)
      = (∑ h, ∑ w, hubR (ryR P h w)) - ∑ w, hubR (ryR P 0 w) + ∑ w, hubR (ryR P 1 w) := by
    rw [Finset.sum_comm]
    simp only [hy, Finset.sum_add_distrib, Finset.sum_sub_distrib]
    rw [Finset.sum_comm]
  unfold NK N
  rw [e1, e2]

/-- The two reflected difference planes stacked along the rows: rows below 512 the row differences, the rest the column ones. -/
def GR (P : Fin 512 → Fin 512 → ℝ) (r : Fin 1024) (w : Fin 512) : ℝ :=
  if h : r.val < 512 then gxR P ⟨r.val, h⟩ w else gyR P ⟨r.val - 512, by have := r.isLt; omega⟩ w

/-- The total of Huber's function over the stacked planes is the total over the two. -/
theorem sum_GR (P : Fin 512 → Fin 512 → ℝ) : (∑ r : Fin 1024, ∑ w, hubR (GR P r w)) = N P := by
  -- the 1024 rows are the first 512 followed by the last 512
  have hs : (∑ r : Fin 1024, ∑ w, hubR (GR P r w))
      = (∑ i : Fin 512, ∑ w, hubR (GR P (Fin.castAdd 512 i) w)) + ∑ j : Fin 512, ∑ w, hubR (GR P (Fin.natAdd 512 j) w) :=
    Fin.sum_univ_add (a := 512) (b := 512) (fun r => ∑ w, hubR (GR P r w))
  have h1 : ∀ (i w : Fin 512), GR P (Fin.castAdd 512 i) w = gxR P i w := by
    intro i w
    have hlt : (Fin.castAdd 512 i : Fin 1024).val < 512 := i.isLt
    unfold GR
    rw [dif_pos hlt]
    rfl
  have h2 : ∀ (j w : Fin 512), GR P (Fin.natAdd 512 j) w = gyR P j w := by
    intro j w
    have hv : (Fin.natAdd 512 j : Fin 1024).val = 512 + j.val := rfl
    have hnlt : ¬ (Fin.natAdd 512 j : Fin 1024).val < 512 := by rw [hv]; omega
    unfold GR
    rw [dif_neg hnlt]
    congr 1
    apply Fin.ext
    show (Fin.natAdd 512 j : Fin 1024).val - 512 = j.val
    rw [hv]; omega
  rw [hs]
  simp only [h1, h2]
  rfl

/-- The stacked planes are linear in the plane: the difference of two stacks is the stack of the difference. -/
theorem GR_sub (A B : Fin 512 → Fin 512 → ℝ) (r : Fin 1024) (w : Fin 512) :
    GR A r w - GR B r w = GR (fun h w => A h w - B h w) r w := by
  unfold GR
  split_ifs
  · simp only [gxR]; split_ifs <;> ring
  · simp only [gyR]; split_ifs <;> ring

end Cert.Huber

end
-- ==== Proof.LibReducePlanes.lean ====
/-
  A sum over two axes read as a double sum over the two reduced coordinates.

  The vector unit's and the host's `add` reductions are, at the ideal instance, the sum of the source over the set of indices
  that drop to the reduced index. For a rank-3 source reduced over its two trailing axes that set is one leading coordinate's
  whole plane; for a rank-4 source reduced over its two trailing axes, the plane of its two leading coordinates. The index
  set is the product of its coordinate ranges, so each sum is a double sum over `Fin`s.
-/
import Idealize.ShloMosaic.PureOps.Ideal
import Idealize.ShloMosaic.PureOps.Ideal.Laws
import Idealize.ShloMosaic.Lib.ValueIdx

noncomputable section

open scoped BigOperators

namespace Cert.Sums

open Idealize.ShloMosaic Idealize.ShloMosaic.ValueIdx

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
private def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
private theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Dropping the two trailing axes of a rank-3 index leaves its leading coordinate: the one kept axis is axis 0. -/
private theorem drop3 {A B C : Nat} (h : (⟨3, ![A, B, C]⟩ : Shape).Reduces [1, 2] ⟨1, ![A]⟩)
    (i : (⟨3, ![A, B, C]⟩ : Shape).Idx) : h.drop i = ix1 (i 0) := by
  funext b
  match b with
  | ⟨0, _⟩ => rfl

/-- Dropping the two trailing axes of a rank-4 index leaves its two leading coordinates: the kept axes are 0 and 1. -/
private theorem drop4 {A B C D : Nat} (h' : (⟨4, ![A, B, C, D]⟩ : Shape).ReducesTo [2, 3] ⟨2, ![A, B]⟩)
    (i : (⟨4, ![A, B, C, D]⟩ : Shape).Idx) : h'.drop i = ix2 (i 0) (i 1) := by
  funext b
  match b with
  | ⟨0, _⟩ => rfl
  | ⟨1, _⟩ => rfl

/-- The vector unit's sum over the two trailing axes of a rank-3 source, at leading coordinate `c`: the double sum over
    that coordinate's plane. -/
theorem reduceAdd_planes {A B C : Nat} (h : (⟨3, ![A, B, C]⟩ : Shape).Reduces [1, 2] ⟨1, ![A]⟩)
    (v : (⟨3, ![A, B, C]⟩ : Shape).Idx → EReal) (c : Fin A) :
    Ideal.reduceAdd h v (ix1 c) = ∑ p : Fin B, ∑ q : Fin C, v (ix3 c p q) := by
  -- The filtered sum is the sum over all indices of an indicator; by coordinates it is a triple sum, and only the
  -- leading coordinate `c` contributes, since an index drops to its leading coordinate.
  unfold Ideal.reduceAdd
  rw [Finset.sum_filter, sum_idx3, Finset.sum_eq_single c]
  · refine Finset.sum_congr rfl fun p _ => Finset.sum_congr rfl fun q _ => ?_
    exact if_pos (show h.drop (ix3 c p q) = ix1 c from drop3 h (ix3 c p q))
  · intro a _ hac
    refine Finset.sum_eq_zero fun p _ => Finset.sum_eq_zero fun q _ => ?_
    rw [if_neg]
    intro e
    rw [drop3] at e
    exact hac (congrFun e 0)
  · intro hc
    exact absurd (Finset.mem_univ c) hc

/-- So a float `multi_reduction <add>` over those axes, read at the ideal instance, is that double sum. -/
theorem multiReduction_planes {A B C : Nat} (src : FVec Ideal ⟨3, ![A, B, C]⟩ .f32) (acc : BitVec 32)
    (h : (⟨3, ![A, B, C]⟩ : Shape).Reduces [1, 2] ⟨1, ![A]⟩) (hφ : FKind.Formats .f32)
    (hacc : acc = FKind.add.neutral .f32 hφ) (c : Fin A) :
    multiReduction .add [1, 2] ⟨1, ![A]⟩ src acc h hφ hacc (ix1 c) = ∑ p : Fin B, ∑ q : Fin C, src (ix3 c p q) :=
  reduceAdd_planes h src c

/-- The host's sum over the two trailing axes of a rank-4 source, at leading coordinates `(a, b)`: the initial value plus
    the double sum over their plane. -/
theorem hostReduceAdd_planes {A B C D : Nat} (h' : (⟨4, ![A, B, C, D]⟩ : Shape).ReducesTo [2, 3] ⟨2, ![A, B]⟩)
    (v : (⟨4, ![A, B, C, D]⟩ : Shape).Idx → EReal) (init : EReal) (a : Fin A) (b : Fin B) :
    Ideal.hostReduceAdd h' v init (ix2 a b) = init + ∑ r : Fin C, ∑ w : Fin D, v (ix4 a b r w) := by
  -- The same on four coordinates: of the fourfold sum only the leading pair `(a, b)` contributes, since an index
  -- drops to its two leading coordinates.
  unfold Ideal.hostReduceAdd
  congr 1
  rw [Finset.sum_filter, sum_idx4, Finset.sum_eq_single a]
  · rw [Finset.sum_eq_single b]
    · refine Finset.sum_congr rfl fun r _ => Finset.sum_congr rfl fun w _ => ?_
      exact if_pos (show h'.drop (ix4 a b r w) = ix2 a b from drop4 h' (ix4 a b r w))
    · intro b' _ hb
      refine Finset.sum_eq_zero fun r _ => Finset.sum_eq_zero fun w _ => ?_
      rw [if_neg]
      intro e
      rw [drop4] at e
      exact hb (congrFun e 1)
    · intro hb
      exact absurd (Finset.mem_univ b) hb
  · intro a' _ ha
    refine Finset.sum_eq_zero fun b' _ => Finset.sum_eq_zero fun r _ => Finset.sum_eq_zero fun w _ => ?_
    rw [if_neg]
    intro e
    rw [drop4] at e
    exact ha (congrFun e 0)
  · intro ha
    exact absurd (Finset.mem_univ a) ha

end Cert.Sums

end
-- ==== Proof.Spec.lean ====
/-
  The common closed form of both programs' result, for argument arrays that are images of real arrays.

  Per image plane `(b, c)` the mean is the Huber total `N` of the plane's reflected differences divided by `524288` (the word
  `0x49000000`: twice 512 · 512 entries); the result is the mean over the 48 planes of the ratio of the difference image's
  mean to the target image's mean plus `f32(0.0001)`, which both programs compute with the same host operations (`tail`).
-/
import proofs.«430997_j56822417326370_3_alg».proof.Proof.Huber

noncomputable section

namespace Cert.Spec

open Idealize.ShloMosaic Idealize.ShloMosaic.ValueIdx Cert.Huber

abbrev S4 : Shape := ⟨4, ![16, 3, 512, 512]⟩
abbrev S16x3 : Shape := ⟨2, ![16, 3]⟩
abbrev S0 : Shape := ⟨0, ![]⟩

/-- Plane `(b, c)` of a real array of 16 × 3 images. -/
def plane (a : S4.Idx → ℝ) (b : Fin 16) (c : Fin 3) : Fin 512 → Fin 512 → ℝ := fun h w => a (ix4 b c h w)

/-- The per-plane means of a family of planes: each plane's Huber total over `524288`. -/
def meanOf (P : Fin 16 → Fin 3 → Fin 512 → Fin 512 → ℝ) : FVec Ideal S16x3 .f32 :=
  fun j => Ideal.div ((N (P (j 0) (j 1)) : ℝ) : EReal) (Ideal.ofBits .f32 0x49000000#32)

/-- From the two arrays of per-plane means to the result: the ratio with `f32(0.0001)` added to the denominator, summed
    over the 48 planes from zero, divided by 48 — the host operations both programs end with. -/
def tail (hb : S0.BroadcastsInDim S16x3 (![] : Fin 0 → Fin S16x3.rank)) (hr : S16x3.ReducesTo [0, 1] S0) (hu : 0 < S0.numel)
    (Md Mn : FVec Ideal S16x3 .f32) : FVec Ideal S0 .f32 :=
  Host.divf (Host.reduceAdd (Host.divf Md (addf Mn (broadcastInDim S16x3 ![] hb (constant S0 .f32 0x38D1B717#32))))
    (constant S0 .f32 0x00000000#32) hr hu) (constant S0 .f32 0x42400000#32)

/-- The result both programs compute from real arrays `xr`, `tr`. -/
def result (hb : S0.BroadcastsInDim S16x3 (![] : Fin 0 → Fin S16x3.rank)) (hr : S16x3.ReducesTo [0, 1] S0) (hu : 0 < S0.numel)
    (xr tr : S4.Idx → ℝ) : FVec Ideal S0 .f32 :=
  tail hb hr hu (meanOf fun b c h w => plane xr b c h w - plane tr b c h w) (meanOf fun b c => plane tr b c)

end Cert.Spec

end
-- ==== Proof.RefValue.lean ====
/-
  The reference's result as the common closed form.

  The reference stacks, per image plane, the reflected row differences (a one-column piece, entry 1 minus entry 0, joined to
  the 511 columns of entry `w − 1` minus entry `w`) on top of the reflected column differences, takes Huber's function of the
  difference of the two images' stacks (of the target image's stack, for the denominator), adds each plane's 1024 × 512 values
  up from zero and divides by `524288`. Read at an index each stack entry is one difference of the argument array; for arrays
  that are images of real arrays every entry is the image of the real stack `GR`, the difference of two stacks the stack of
  the difference, and the sum the image of the real total.
-/
import proofs.«430997_j56822417326370_3_alg».proof.Proof.Gen.ReferenceIdeal.Run
import proofs.«430997_j56822417326370_3_alg».proof.Proof.Huber
import proofs.«430997_j56822417326370_3_alg».proof.Proof.LibReducePlanes
import proofs.«430997_j56822417326370_3_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Huber Cert.Spec

/-! ## The reference's stages, named -/

/-- Row differences, first column reflected: the one-column piece joined to the 511 others. -/
def gxV (a : FVec Ideal S16x3x512x512 .f32) : FVec Ideal S16x3x512x512 .f32 :=
  concatenate S16x3x512x512 3 [⟨S16x3x512x1, (subf (extractStridedSlice S16x3x512x1 ![0, 0, 0, 1] a slices_S16x3x512x512_S16x3x512x1_0_0_0_1) (extractStridedSlice S16x3x512x1 ![0, 0, 0, 0] a slices_S16x3x512x512_S16x3x512x1_0_0_0_0))⟩, ⟨S16x3x512x511, (subf (extractStridedSlice S16x3x512x511 ![0, 0, 0, 0] a slices_S16x3x512x512_S16x3x512x511_0_0_0_0) (extractStridedSlice S16x3x512x511 ![0, 0, 0, 1] a slices_S16x3x512x512_S16x3x512x511_0_0_0_1))⟩] concatenates_S16x3x512x1_S16x3x512x511_S16x3x512x512_d3

/-- Column differences, first row reflected. -/
def gyV (a : FVec Ideal S16x3x512x512 .f32) : FVec Ideal S16x3x512x512 .f32 :=
  concatenate S16x3x512x512 2 [⟨S16x3x1x512, (subf (extractStridedSlice S16x3x1x512 ![0, 0, 1, 0] a slices_S16x3x512x512_S16x3x1x512_0_0_1_0) (extractStridedSlice S16x3x1x512 ![0, 0, 0, 0] a slices_S16x3x512x512_S16x3x1x512_0_0_0_0))⟩, ⟨S16x3x511x512, (subf (extractStridedSlice S16x3x511x512 ![0, 0, 0, 0] a slices_S16x3x512x512_S16x3x511x512_0_0_0_0) (extractStridedSlice S16x3x511x512 ![0, 0, 1, 0] a slices_S16x3x512x512_S16x3x511x512_0_0_1_0))⟩] concatenates_S16x3x1x512_S16x3x511x512_S16x3x512x512_d2

/-- The two difference planes stacked along the rows. -/
def gradV (a : FVec Ideal S16x3x512x512 .f32) : FVec Ideal S16x3x1024x512 .f32 :=
  concatenate S16x3x1024x512 2 [⟨S16x3x512x512, gxV a⟩, ⟨S16x3x512x512, gyV a⟩] concatenates_S16x3x512x512_S16x3x512x512_S16x3x1024x512_d2

/-- Huber's function of every entry, as the host operations spell it. -/
def hubV (v : FVec Ideal S16x3x1024x512 .f32) : FVec Ideal S16x3x1024x512 .f32 :=
  select (cmpf .olt (Host.absf v) (broadcastInDim S16x3x1024x512 ![] bcast_S_S16x3x1024x512 (constant S_ .f32 0x3F800000#32)))
    (mulf (mulf (broadcastInDim S16x3x1024x512 ![] bcast_S_S16x3x1024x512 (constant S_ .f32 0x3F000000#32)) v) v)
    (subf (Host.absf v) (broadcastInDim S16x3x1024x512 ![] bcast_S_S16x3x1024x512 (constant S_ .f32 0x3F000000#32)))

/-- Each plane's total from zero, over `524288`. -/
def meanV (v : FVec Ideal S16x3x1024x512 .f32) : FVec Ideal S16x3 .f32 :=
  Host.divf (Host.reduceAdd v (constant S_ .f32 0x00000000#32) reducesTo_S16x3x1024x512_S16x3_d2_3 h_S_)
    (broadcastInDim S16x3 ![] bcast_S_S16x3 (constant S_ .f32 0x49000000#32))

/-- The run's result term is the common tail of the two arrays of means. -/
theorem res_eq (m : (ℓ : Loc nD τ sig) → Buf (Elt Ideal) ℓ) (c : Dev nD) :
    Cert.ReferenceIdeal.Value.res_main_v59 (F := Ideal) m c
      = tail bcast_S_S16x3 reducesTo_S16x3_S_d0_1 h_S_
          (meanV (hubV (subf (gradV (m ((c.tc : Thread nD τ).loc main_arg0))) (gradV (m ((c.tc : Thread nD τ).loc main_arg1))))))
          (meanV (hubV (gradV (m ((c.tc : Thread nD τ).loc main_arg1))))) := by
  unfold Cert.ReferenceIdeal.Value.res_main_v59
  rfl

/-! ## The stages read at an index -/

/-- Huber's function of a vector, at an index, is the spelled scalar function of the entry. -/
theorem hubV_apply (v : FVec Ideal S16x3x1024x512 .f32) (i : S16x3x1024x512.Idx) : hubV v i = hub (v i) := rfl

/-- A plane's mean: zero plus the plane's double sum, over `524288`. -/
theorem meanV_apply (v : FVec Ideal S16x3x1024x512 .f32) (b : Fin 16) (c : Fin 3) :
    meanV v (ix2 b c) = Ideal.div (Ideal.ofBits .f32 0x00000000#32 + ∑ r : Fin 1024, ∑ w : Fin 512, v (ix4 b c r w))
      (Ideal.ofBits .f32 0x49000000#32) := by
  unfold meanV
  show Ideal.div (Ideal.hostReduceAdd reducesTo_S16x3x1024x512_S16x3_d2_3 v (Ideal.ofBits .f32 0x00000000#32) (ix2 b c)) _ = _
  rw [Cert.Sums.hostReduceAdd_planes]
  rfl

section Real
variable (xr : S16x3x512x512.Idx → ℝ)

/-- The row differences of an image of a real array are the images of the real ones. -/
theorem gxV_coe (b : Fin 16) (c : Fin 3) (h w : Fin 512) :
    gxV (fun i => ((xr i : ℝ) : EReal)) (ix4 b c h w) = ((gxR (plane xr b c) h w : ℝ) : EReal) := by
  unfold gxV gxR plane
  by_cases hw : w.val = 0
  · rw [if_pos hw]
    refine (concatenate_pair_apply_left (t := S16x3x512x512) (s₁ := S16x3x512x1) (s₂ := S16x3x512x511) (3 : Fin 4) _ _ concatenates_S16x3x512x1_S16x3x512x511_S16x3x512x512_d3 (ix4 b c h w) rfl
      (ix4 b c h (0 : Fin 1)) ?_).trans ?_
    · intro a
      match a with
      | ⟨0, _⟩ => rfl
      | ⟨1, _⟩ => rfl
      | ⟨2, _⟩ => rfl
      | ⟨3, _⟩ => exact hw.symm
    · rw [subf_apply,
        extractStridedSlice_apply ![0, 0, 0, 1] _ slices_S16x3x512x512_S16x3x512x1_0_0_0_1 (ix4 b c h (0 : Fin 1)) (ix4 b c h (1 : Fin 512)) (fun a => by
          match a with
          | ⟨0, _⟩ => exact (Nat.zero_add _).symm
          | ⟨1, _⟩ => exact (Nat.zero_add _).symm
          | ⟨2, _⟩ => exact (Nat.zero_add _).symm
          | ⟨3, _⟩ => rfl),
        extractStridedSlice_apply ![0, 0, 0, 0] _ slices_S16x3x512x512_S16x3x512x1_0_0_0_0 (ix4 b c h (0 : Fin 1)) (ix4 b c h (0 : Fin 512)) (fun a => by
          match a with
          | ⟨0, _⟩ => exact (Nat.zero_add _).symm
          | ⟨1, _⟩ => exact (Nat.zero_add _).symm
          | ⟨2, _⟩ => exact (Nat.zero_add _).symm
          | ⟨3, _⟩ => rfl),
        ← EReal.coe_sub]
  · rw [if_neg hw]
    have hw1 : 1 ≤ w.val := Nat.one_le_iff_ne_zero.mpr hw
    have hwlt : w.val < 512 := w.isLt
    refine (concatenate_pair_apply_right (t := S16x3x512x512) (s₁ := S16x3x512x1) (s₂ := S16x3x512x511) (3 : Fin 4) _ _ concatenates_S16x3x512x1_S16x3x512x511_S16x3x512x512_d3 (ix4 b c h w) rfl rfl
      (ix4 b c h (⟨w.val - 1, by omega⟩ : Fin 511)) ?_ ?_).trans ?_
    · intro a ha
      match a with
      | ⟨0, _⟩ => rfl
      | ⟨1, _⟩ => rfl
      | ⟨2, _⟩ => rfl
      | ⟨3, _⟩ => exact absurd rfl ha
    · show w.val - 1 + 1 = w.val
      omega
    · rw [subf_apply,
        extractStridedSlice_apply ![0, 0, 0, 0] _ slices_S16x3x512x512_S16x3x512x511_0_0_0_0 (ix4 b c h (⟨w.val - 1, by omega⟩ : Fin 511)) (ix4 b c h (pw w)) (fun a => by
          match a with
          | ⟨0, _⟩ => exact (Nat.zero_add _).symm
          | ⟨1, _⟩ => exact (Nat.zero_add _).symm
          | ⟨2, _⟩ => exact (Nat.zero_add _).symm
          | ⟨3, _⟩ => show (w.val + 511) % 512 = 0 + (w.val - 1); omega),
        extractStridedSlice_apply ![0, 0, 0, 1] _ slices_S16x3x512x512_S16x3x512x511_0_0_0_1 (ix4 b c h (⟨w.val - 1, by omega⟩ : Fin 511)) (ix4 b c h w) (fun a => by
          match a with
          | ⟨0, _⟩ => exact (Nat.zero_add _).symm
          | ⟨1, _⟩ => exact (Nat.zero_add _).symm
          | ⟨2, _⟩ => exact (Nat.zero_add _).symm
          | ⟨3, _⟩ => show w.val = 1 + (w.val - 1); omega),
        ← EReal.coe_sub]

/-- The column differences of an image of a real array are the images of the real ones. -/
theorem gyV_coe (b : Fin 16) (c : Fin 3) (h w : Fin 512) :
    gyV (fun i => ((xr i : ℝ) : EReal)) (ix4 b c h w) = ((gyR (plane xr b c) h w : ℝ) : EReal) := by
  unfold gyV gyR plane
  by_cases hh : h.val = 0
  · rw [if_pos hh]
    refine (concatenate_pair_apply_left (t := S16x3x512x512) (s₁ := S16x3x1x512) (s₂ := S16x3x511x512) (2 : Fin 4) _ _ concatenates_S16x3x1x512_S16x3x511x512_S16x3x512x512_d2 (ix4 b c h w) rfl
      (ix4 b c (0 : Fin 1) w) ?_).trans ?_
    · intro a
      match a with
      | ⟨0, _⟩ => rfl
      | ⟨1, _⟩ => rfl
      | ⟨2, _⟩ => exact hh.symm
      | ⟨3, _⟩ => rfl
    · rw [subf_apply,
        extractStridedSlice_apply ![0, 0, 1, 0] _ slices_S16x3x512x512_S16x3x1x512_0_0_1_0 (ix4 b c (0 : Fin 1) w) (ix4 b c (1 : Fin 512) w) (fun a => by
          match a with
          | ⟨0, _⟩ => exact (Nat.zero_add _).symm
          | ⟨1, _⟩ => exact (Nat.zero_add _).symm
          | ⟨2, _⟩ => rfl
          | ⟨3, _⟩ => exact (Nat.zero_add _).symm),
        extractStridedSlice_apply ![0, 0, 0, 0] _ slices_S16x3x512x512_S16x3x1x512_0_0_0_0 (ix4 b c (0 : Fin 1) w) (ix4 b c (0 : Fin 512) w) (fun a => by
          match a with
          | ⟨0, _⟩ => exact (Nat.zero_add _).symm
          | ⟨1, _⟩ => exact (Nat.zero_add _).symm
          | ⟨2, _⟩ => rfl
          | ⟨3, _⟩ => exact (Nat.zero_add _).symm),
        ← EReal.coe_sub]
  · rw [if_neg hh]
    have hh1 : 1 ≤ h.val := Nat.one_le_iff_ne_zero.mpr hh
    have hhlt : h.val < 512 := h.isLt
    refine (concatenate_pair_apply_right (t := S16x3x512x512) (s₁ := S16x3x1x512) (s₂ := S16x3x511x512) (2 : Fin 4) _ _ concatenates_S16x3x1x512_S16x3x511x512_S16x3x512x512_d2 (ix4 b c h w) rfl rfl
      (ix4 b c (⟨h.val - 1, by omega⟩ : Fin 511) w) ?_ ?_).trans ?_
    · intro a ha
      match a with
      | ⟨0, _⟩ => rfl
      | ⟨1, _⟩ => rfl
      | ⟨2, _⟩ => exact absurd rfl ha
      | ⟨3, _⟩ => rfl
    · show h.val - 1 + 1 = h.val
      omega
    · rw [subf_apply,
        extractStridedSlice_apply ![0, 0, 0, 0] _ slices_S16x3x512x512_S16x3x511x512_0_0_0_0 (ix4 b c (⟨h.val - 1, by omega⟩ : Fin 511) w) (ix4 b c (pw h) w) (fun a => by
          match a with
          | ⟨0, _⟩ => exact (Nat.zero_add _).symm
          | ⟨1, _⟩ => exact (Nat.zero_add _).symm
          | ⟨2, _⟩ => show (h.val + 511) % 512 = 0 + (h.val - 1); omega
          | ⟨3, _⟩ => exact (Nat.zero_add _).symm),
        extractStridedSlice_apply ![0, 0, 1, 0] _ slices_S16x3x512x512_S16x3x511x512_0_0_1_0 (ix4 b c (⟨h.val - 1, by omega⟩ : Fin 511) w) (ix4 b c h w) (fun a => by
          match a with
          | ⟨0, _⟩ => exact (Nat.zero_add _).symm
          | ⟨1, _⟩ => exact (Nat.zero_add _).symm
          | ⟨2, _⟩ => show h.val = 1 + (h.val - 1); omega
          | ⟨3, _⟩ => exact (Nat.zero_add _).symm),
        ← EReal.coe_sub]

/-- The stacked differences of an image of a real array are the images of the real stack. -/
theorem gradV_coe (b : Fin 16) (c : Fin 3) (r : Fin 1024) (w : Fin 512) :
    gradV (fun i => ((xr i : ℝ) : EReal)) (ix4 b c r w) = ((GR (plane xr b c) r w : ℝ) : EReal) := by
  unfold gradV GR
  have hrlt : r.val < 1024 := r.isLt
  by_cases hr : r.val < 512
  · rw [dif_pos hr]
    refine (concatenate_pair_apply_left (t := S16x3x1024x512) (s₁ := S16x3x512x512) (s₂ := S16x3x512x512) (2 : Fin 4) _ _ concatenates_S16x3x512x512_S16x3x512x512_S16x3x1024x512_d2 (ix4 b c r w) rfl
      (ix4 b c (⟨r.val, hr⟩ : Fin 512) w) ?_).trans (gxV_coe xr b c ⟨r.val, hr⟩ w)
    intro a
    match a with
    | ⟨0, _⟩ => rfl
    | ⟨1, _⟩ => rfl
    | ⟨2, _⟩ => rfl
    | ⟨3, _⟩ => rfl
  · rw [dif_neg hr]
    refine (concatenate_pair_apply_right (t := S16x3x1024x512) (s₁ := S16x3x512x512) (s₂ := S16x3x512x512) (2 : Fin 4) _ _ concatenates_S16x3x512x512_S16x3x512x512_S16x3x1024x512_d2 (ix4 b c r w) rfl rfl
      (ix4 b c (⟨r.val - 512, by omega⟩ : Fin 512) w) ?_ ?_).trans (gyV_coe xr b c ⟨r.val - 512, by omega⟩ w)
    · intro a ha
      match a with
      | ⟨0, _⟩ => rfl
      | ⟨1, _⟩ => rfl
      | ⟨2, _⟩ => exact absurd rfl ha
      | ⟨3, _⟩ => rfl
    · show r.val - 512 + 512 = r.val
      omega

end Real

/-! ## The two arrays of means, and the result -/

/-- The target image's means. -/
theorem mean_norm (tr : S16x3x512x512.Idx → ℝ) :
    meanV (hubV (gradV (fun i => ((tr i : ℝ) : EReal)))) = meanOf (fun b c => plane tr b c) := by
  funext j
  obtain ⟨b, c, rfl⟩ : ∃ (b : Fin 16) (c : Fin 3), j = ix2 b c := ⟨j 0, j 1, eq_ix2 j⟩
  rw [meanV_apply]
  show _ = Ideal.div ((N (plane tr b c) : ℝ) : EReal) _
  congr 1
  simp only [hubV_apply, gradV_coe, hub_coe, ← coe_sum, ofBits_zero, zero_add, sum_GR]

/-- The difference image's means: the difference of the two stacks is the stack of the difference. -/
theorem mean_diff (xr tr : S16x3x512x512.Idx → ℝ) :
    meanV (hubV (subf (gradV (fun i => ((xr i : ℝ) : EReal))) (gradV (fun i => ((tr i : ℝ) : EReal)))))
      = meanOf (fun b c h w => plane xr b c h w - plane tr b c h w) := by
  funext j
  obtain ⟨b, c, rfl⟩ : ∃ (b : Fin 16) (c : Fin 3), j = ix2 b c := ⟨j 0, j 1, eq_ix2 j⟩
  rw [meanV_apply]
  show _ = Ideal.div ((N (fun h w => plane xr b c h w - plane tr b c h w) : ℝ) : EReal) _
  congr 1
  simp only [hubV_apply, subf_apply, gradV_coe, ← EReal.coe_sub, GR_sub, hub_coe, ← coe_sum, ofBits_zero, zero_add, sum_GR]

/-- THE REFERENCE'S RESULT on images of real arrays is the common closed form. -/
theorem res_coe (m : (ℓ : Loc nD τ sig) → Buf (Elt Ideal) ℓ) (c : Dev nD) (xr tr : S16x3x512x512.Idx → ℝ)
    (hx : m ((c.tc : Thread nD τ).loc main_arg0) = fun i => ((xr i : ℝ) : EReal))
    (ht : m ((c.tc : Thread nD τ).loc main_arg1) = fun i => ((tr i : ℝ) : EReal)) :
    Cert.ReferenceIdeal.Value.res_main_v59 (F := Ideal) m c = result bcast_S_S16x3 reducesTo_S16x3_S_d0_1 h_S_ xr tr := by
  rw [res_eq, hx, ht, mean_diff, mean_norm]
  rfl

end Cert.ReferenceIdeal.RefValue

end
-- ==== Proof.KernelPay.lean ====
/-
  The kernel body's two stored values, read at an index, for blocks that are images of real blocks.

  Per channel `c` the body takes the cyclic differences of a block's plane along both axes (a rotation by one less the block),
  adds up Huber's function of all of them, removes the first column's (row's) total and adds the second's, adds the two axes'
  corrected totals, divides by `524288` and spreads the quotient over an 8 × 128 tile. For the first output the block is the
  difference of the two input blocks, for the second the second input block. With every entry the image of a real, each
  total is the image of the real cyclic total `NK` of the plane.
-/
import proofs.«430997_j56822417326370_3_alg».proof.Proof.Gen.KernelIdeal.Skeleton
import proofs.«430997_j56822417326370_3_alg».proof.Proof.Huber
import proofs.«430997_j56822417326370_3_alg».proof.Proof.LibReducePlanes
import Idealize.ShloMosaic.Lib.Pipeline.Value
import Idealize.ShloMosaic.Lib.KernelVsHost
import Idealize.ShloMosaic.Lib.ValueIdx
import Idealize.ShloMosaic.Lib.ValueLayout

noncomputable section

open scoped BigOperators

namespace Cert.KernelIdeal.Pay

open Cert.KernelIdeal Cert.KernelIdeal.Gen Idealize.ShloMosaic Idealize.ShloMosaic.ValueIdx Cert.Huber

/-- Huber's function applied entrywise, as the body spells it on a vector of any shape. -/
private def hubV {s : Shape} (v : FVec Ideal s .f32) : FVec Ideal s .f32 :=
  select (cmpf .olt (absf v) (broadcast s (Scalar.ofBits .f32 0x3F800000#32)))
    (mulf (mulf (broadcast s (Scalar.ofBits .f32 0x3F000000#32)) v) v)
    (subf (absf v) (broadcast s (Scalar.ofBits .f32 0x3F000000#32)))

private theorem hubV_apply {s : Shape} (v : FVec Ideal s .f32) (i : s.Idx) : hubV v i = hub (v i) := rfl

/-- The per-channel total of Huber's function over the two trailing axes of a rank-3 vector. -/
private def hsum {A B C : Nat} (v : FVec Ideal ⟨3, ![A, B, C]⟩ .f32)
    (h : (⟨3, ![A, B, C]⟩ : Shape).Reduces [1, 2] ⟨1, ![A]⟩) : FVec Ideal ⟨1, ![A]⟩ .f32 :=
  multiReduction .add [1, 2] ⟨1, ![A]⟩ (hubV v) 0x00000000#32 h (.inl rfl) rfl

/-- A block's cyclic differences along its last axis: the block rotated by one, less the block. -/
private def dX (D : FVec Ideal S3x512x512 .f32) : FVec Ideal S3x512x512 .f32 :=
  subf (dynamicRotate 2 1#32 none D rotates_S3x512x512_d2) D

/-- A block's cyclic differences along its middle axis. -/
private def dY (D : FVec Ideal S3x512x512 .f32) : FVec Ideal S3x512x512 .f32 :=
  subf (dynamicRotate 1 1#32 none D rotates_S3x512x512_d1) D

/-- The corrected total of one axis' Huber values: all of them, less the first column's (row's), plus the second's; and the
    two axes' corrected totals added. -/
private def total (D : FVec Ideal S3x512x512 .f32) : FVec Ideal S3 .f32 :=
  addf
    (addf
      (subf (hsum (dX D) reduces_S3x512x512_S3)
        (hsum (extractStridedSlice S3x512x1 ![0, 0, 0] (dX D) slices_S3x512x512_o0_0_0_S3x512x1) reduces_S3x512x1_S3))
      (hsum (extractStridedSlice S3x512x1 ![0, 0, 1] (dX D) slices_S3x512x512_o0_0_1_S3x512x1) reduces_S3x512x1_S3))
    (addf
      (subf (hsum (dY D) reduces_S3x512x512_S3)
        (hsum (extractStridedSlice S3x1x512 ![0, 0, 0] (dY D) slices_S3x512x512_o0_0_0_S3x1x512) reduces_S3x1x512_S3))
      (hsum (extractStridedSlice S3x1x512 ![0, 1, 0] (dY D) slices_S3x512x512_o0_1_0_S3x1x512) reduces_S3x1x512_S3))

/-- A per-channel value divided by `524288` and spread over the channel's 8 × 128 tile. -/
private def spread (v : FVec Ideal S3 .f32) : FVec Ideal S1x3x8x128 .f32 :=
  shapeCast S1x3x8x128
    (broadcastTo S3x8x128
      (shapeCast S3x1x1
        (shapeCast S3x1x1 (divf v (broadcast S3 (Scalar.ofBits .f32 0x49000000#32))) shapeCasts_S3_S3x1x1)
        shapeCasts_S3x1x1_S3x1x1)
      broadcasts_S3x1x1_S3x8x128)
    shapeCasts_S3x8x128_S1x3x8x128

/-- The first output's payload is the spread corrected total of the difference block. -/
private theorem pay16_eq (x t : Vec Ideal S1x3x512x512 .f32) :
    k0_pay16 (F := Ideal) (k0_pay6 (k0_pay2 x t) (k0_pay4 x t) (k0_pay5 x t)) = spread (total (k0_pay2 x t)) := rfl

/-- The second output's payload is the spread corrected total of the second block. -/
private theorem pay17_eq (t : Vec Ideal S1x3x512x512 .f32) :
    k0_pay17 (F := Ideal)
        (k0_pay11 (k0_pay7 (k0_pay1 t)) (k0_pay8 (k0_pay1 t)) (k0_pay9 (k0_pay1 t)) (k0_pay10 (k0_pay1 t))
          (Scalar.ofBits .f32 0x3F800000#32))
        (k0_pay13 (k0_pay1 t)) (k0_pay14 (k0_pay1 t)) (k0_pay15 (k0_pay1 t)) = spread (total (k0_pay1 t)) := rfl

/-- The spread tile read at an entry: the channel's value over `524288`. -/
private theorem spread_apply (v : FVec Ideal S3 .f32) (c : Fin 3) (i : Fin 8) (j : Fin 128) :
    spread v (ix4 (0 : Fin 1) c i j) = Ideal.div (v (ix1 c)) (Ideal.ofBits .f32 0x49000000#32) := by
  unfold spread
  refine (shapeCast_addUnit_apply ![3, 8, 128] _ shapeCasts_S3x8x128_S1x3x8x128 (ix4 (0 : Fin 1) c i j)).trans ?_
  refine (broadcastTo_apply _ broadcasts_S3x1x1_S3x8x128 _ (ix3 c (0 : Fin 1) (0 : Fin 1)) ?_).trans ?_
  · intro a
    match a with
    | ⟨0, _⟩ => rfl
    | ⟨1, _⟩ => rfl
    | ⟨2, _⟩ => rfl
  rw [shapeCast_self]
  refine (shapeCast_apply _ shapeCasts_S3_S3x1x1 _ (ix1 c) ?_).trans ?_
  · rw [Shape.rowMajor_val_one, Shape.rowMajor_val_three]
    show c.val = (c.val * 1 + 0) * 1 + 0
    omega
  rfl

/-- Dropping the unit axis of a block reads it at the same three coordinates. -/
private theorem drop_apply (v : Vec Ideal S1x3x512x512 .f32) (c : Fin 3) (h w : Fin 512) :
    shapeCast S3x512x512 v shapeCasts_S1x3x512x512_S3x512x512 (ix3 c h w) = v (ix4 (0 : Fin 1) c h w) := by
  refine (shapeCast_dropUnit_apply ![3, 512, 512] v shapeCasts_S1x3x512x512_S3x512x512 (ix3 c h w)).trans ?_
  congr 1
  funext a
  match a with
  | ⟨0, _⟩ => rfl
  | ⟨1, _⟩ => rfl
  | ⟨2, _⟩ => rfl
  | ⟨3, _⟩ => rfl

/-- The cyclic differences along the last axis, read at an index. -/
private theorem dX_apply (D : FVec Ideal S3x512x512 .f32) (c : Fin 3) (h w : Fin 512) :
    dX D (ix3 c h w) = D (ix3 c h (pw w)) - D (ix3 c h w) := by
  unfold dX
  rw [subf_apply]
  congr 1
  refine dynamicRotate_apply 2 1#32 D rotates_S3x512x512_d2 (ix3 c h w) (ix3 c h (pw w)) ?_
  intro b
  match b with
  | ⟨0, _⟩ => rfl
  | ⟨1, _⟩ => rfl
  | ⟨2, _⟩ => rfl

/-- The cyclic differences along the middle axis, read at an index. -/
private theorem dY_apply (D : FVec Ideal S3x512x512 .f32) (c : Fin 3) (h w : Fin 512) :
    dY D (ix3 c h w) = D (ix3 c (pw h) w) - D (ix3 c h w) := by
  unfold dY
  rw [subf_apply]
  congr 1
  refine dynamicRotate_apply 1 1#32 D rotates_S3x512x512_d1 (ix3 c h w) (ix3 c (pw h) w) ?_
  intro b
  match b with
  | ⟨0, _⟩ => rfl
  | ⟨1, _⟩ => rfl
  | ⟨2, _⟩ => rfl

/-- The first column of a block. -/
private theorem col0_apply (v : FVec Ideal S3x512x512 .f32) (c : Fin 3) (p : Fin 512) (q : Fin 1) :
    extractStridedSlice S3x512x1 ![0, 0, 0] v slices_S3x512x512_o0_0_0_S3x512x1 (ix3 c p q) = v (ix3 c p 0) := by
  refine extractStridedSlice_apply _ v _ (ix3 c p q) (ix3 c p 0) ?_
  intro a
  have hq : q.val = 0 := by have := q.isLt; omega
  match a with
  | ⟨0, _⟩ => exact (Nat.zero_add _).symm
  | ⟨1, _⟩ => exact (Nat.zero_add _).symm
  | ⟨2, _⟩ => show (0 : Nat) = 0 + q.val; omega

/-- The second column of a block. -/
private theorem col1_apply (v : FVec Ideal S3x512x512 .f32) (c : Fin 3) (p : Fin 512) (q : Fin 1) :
    extractStridedSlice S3x512x1 ![0, 0, 1] v slices_S3x512x512_o0_0_1_S3x512x1 (ix3 c p q) = v (ix3 c p 1) := by
  refine extractStridedSlice_apply _ v _ (ix3 c p q) (ix3 c p 1) ?_
  intro a
  have hq : q.val = 0 := by have := q.isLt; omega
  match a with
  | ⟨0, _⟩ => exact (Nat.zero_add _).symm
  | ⟨1, _⟩ => exact (Nat.zero_add _).symm
  | ⟨2, _⟩ => show (1 : Nat) = 1 + q.val; omega

/-- The first row of a block. -/
private theorem row0_apply (v : FVec Ideal S3x512x512 .f32) (c : Fin 3) (p : Fin 1) (q : Fin 512) :
    extractStridedSlice S3x1x512 ![0, 0, 0] v slices_S3x512x512_o0_0_0_S3x1x512 (ix3 c p q) = v (ix3 c 0 q) := by
  refine extractStridedSlice_apply _ v _ (ix3 c p q) (ix3 c 0 q) ?_
  intro a
  have hp : p.val = 0 := by have := p.isLt; omega
  match a with
  | ⟨0, _⟩ => exact (Nat.zero_add _).symm
  | ⟨1, _⟩ => show (0 : Nat) = 0 + p.val; omega
  | ⟨2, _⟩ => exact (Nat.zero_add _).symm

/-- The second row of a block. -/
private theorem row1_apply (v : FVec Ideal S3x512x512 .f32) (c : Fin 3) (p : Fin 1) (q : Fin 512) :
    extractStridedSlice S3x1x512 ![0, 1, 0] v slices_S3x512x512_o0_1_0_S3x1x512 (ix3 c p q) = v (ix3 c 1 q) := by
  refine extractStridedSlice_apply _ v _ (ix3 c p q) (ix3 c 1 q) ?_
  intro a
  have hp : p.val = 0 := by have := p.isLt; omega
  match a with
  | ⟨0, _⟩ => exact (Nat.zero_add _).symm
  | ⟨1, _⟩ => show (1 : Nat) = 1 + p.val; omega
  | ⟨2, _⟩ => exact (Nat.zero_add _).symm

/-- The total of Huber's function over one channel's plane of a vector whose entries there are images of reals. -/
private theorem hsum_apply {A B C : Nat} (v : FVec Ideal ⟨3, ![A, B, C]⟩ .f32) (R : Fin B → Fin C → ℝ) (c : Fin A)
    (hv : ∀ p q, v (ix3 c p q) = ((R p q : ℝ) : EReal))
    (h : (⟨3, ![A, B, C]⟩ : Shape).Reduces [1, 2] ⟨1, ![A]⟩) :
    hsum v h (ix1 c) = ((∑ p, ∑ q, hubR (R p q) : ℝ) : EReal) := by
  unfold hsum
  refine (Cert.Sums.multiReduction_planes (hubV v) 0x00000000#32 h (.inl rfl) rfl c).trans ?_
  simp only [hubV_apply, hv, hub_coe, coe_sum]

/-- THE GENERIC STEP: for a block whose channel `c` is the image of a real plane `P`, the corrected two-axis total at `c` is
    the image of the plane's cyclic total. -/
private theorem total_apply (D : FVec Ideal S3x512x512 .f32) (P : Fin 512 → Fin 512 → ℝ) (c : Fin 3)
    (hD : ∀ h w, D (ix3 c h w) = ((P h w : ℝ) : EReal)) : total D (ix1 c) = ((NK P : ℝ) : EReal) := by
  have hX : ∀ h w, dX D (ix3 c h w) = ((rxR P h w : ℝ) : EReal) := by
    intro h w
    rw [dX_apply, hD, hD, ← EReal.coe_sub]
    rfl
  have hY : ∀ h w, dY D (ix3 c h w) = ((ryR P h w : ℝ) : EReal) := by
    intro h w
    rw [dY_apply, hD, hD, ← EReal.coe_sub]
    rfl
  unfold total
  rw [addf_apply, addf_apply, subf_apply, addf_apply, subf_apply,
    hsum_apply (dX D) (rxR P) c hX,
    hsum_apply _ (fun h (_ : Fin 1) => rxR P h 0) c (fun p q => by rw [col0_apply, hX]),
    hsum_apply _ (fun h (_ : Fin 1) => rxR P h 1) c (fun p q => by rw [col1_apply, hX]),
    hsum_apply (dY D) (ryR P) c hY,
    hsum_apply _ (fun (_ : Fin 1) w => ryR P 0 w) c (fun p q => by rw [row0_apply, hY]),
    hsum_apply _ (fun (_ : Fin 1) w => ryR P 1 w) c (fun p q => by rw [row1_apply, hY]),
    ← EReal.coe_sub, ← EReal.coe_add, ← EReal.coe_sub, ← EReal.coe_add, ← EReal.coe_add]
  simp only [Fin.sum_univ_one]
  rfl

/-- The first output's stored tile: at every entry of channel `c`'s tile, the cyclic Huber total of the difference of the two
    blocks' planes over `524288`. -/
theorem pay_diff (xr tr : S1x3x512x512.Idx → ℝ) (c : Fin 3) (i : Fin 8) (j : Fin 128) :
    k0_pay16 (F := Ideal) (k0_pay6 (k0_pay2 (fun y => ((xr y : ℝ) : EReal)) (fun y => ((tr y : ℝ) : EReal)))
        (k0_pay4 (fun y => ((xr y : ℝ) : EReal)) (fun y => ((tr y : ℝ) : EReal)))
        (k0_pay5 (fun y => ((xr y : ℝ) : EReal)) (fun y => ((tr y : ℝ) : EReal)))) (ix4 (0 : Fin 1) c i j)
      = Ideal.div ((NK (fun h w => xr (ix4 (0 : Fin 1) c h w) - tr (ix4 (0 : Fin 1) c h w)) : ℝ) : EReal)
          (Ideal.ofBits .f32 0x49000000#32) := by
  -- the stored value is the spread of the corrected total of the difference block
  rw [pay16_eq, spread_apply]
  congr 1
  refine total_apply _ _ c fun h w => ?_
  unfold k0_pay2 k0_pay1
  rw [subf_apply, drop_apply, drop_apply, ← EReal.coe_sub]

/-- The second output's stored tile: the same of the second block's planes alone. -/
theorem pay_norm (tr : S1x3x512x512.Idx → ℝ) (c : Fin 3) (i : Fin 8) (j : Fin 128) :
    k0_pay17 (F := Ideal)
        (k0_pay11 (k0_pay7 (k0_pay1 (fun y => ((tr y : ℝ) : EReal)))) (k0_pay8 (k0_pay1 (fun y => ((tr y : ℝ) : EReal))))
          (k0_pay9 (k0_pay1 (fun y => ((tr y : ℝ) : EReal)))) (k0_pay10 (k0_pay1 (fun y => ((tr y : ℝ) : EReal))))
          (Scalar.ofBits .f32 0x3F800000#32))
        (k0_pay13 (k0_pay1 (fun y => ((tr y : ℝ) : EReal)))) (k0_pay14 (k0_pay1 (fun y => ((tr y : ℝ) : EReal))))
        (k0_pay15 (k0_pay1 (fun y => ((tr y : ℝ) : EReal)))) (ix4 (0 : Fin 1) c i j)
      = Ideal.div ((NK (fun h w => tr (ix4 (0 : Fin 1) c h w)) : ℝ) : EReal) (Ideal.ofBits .f32 0x49000000#32) := by
  -- the stored value is the spread of the corrected total of the second block
  rw [pay17_eq, spread_apply]
  congr 1
  refine total_apply _ _ c fun h w => ?_
  unfold k0_pay1
  rw [drop_apply]

end Cert.KernelIdeal.Pay

end
-- ==== Proof.KernelTail.lean ====
/-
  The host operations after the kernel region, read back.

  After the region the program slices entry `[b, c, 0, 0]` out of each of the two output arrays, reshapes the slices to
  16 × 3 and runs the common tail on them (the ratio with `f32(0.0001)` added to the denominator, the sum over the 48 planes from
  zero, the division by 48). Whatever the four arrays of the pipeline hold when the region ends, the program's result buffer
  then holds the tail of those two 16 × 3 arrays of entries.
-/
import proofs.«430997_j56822417326370_3_alg».proof.Proof.Gen.KernelIdeal.Frame
import proofs.«430997_j56822417326370_3_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.KTail

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-- Entry `[b, c, 0, 0]` of an output array, as a 16 × 3 array. -/
def corner (a : S16x3x8x128.Idx → EReal) : FVec Ideal Cert.Spec.S16x3 .f32 :=
  fun j => a (ix4 (j 0) (j 1) (0 : Fin 8) (0 : Fin 128))

/-- The 16 × 3 reshape of the slice at offsets zero with unit trailing extents holds entry `[b, c, 0, 0]` at `(b, c)`: the
    reshape keeps the row-major position, which on unit trailing axes is the leading pair's, and the slice at offsets
    zero reads the array at the same coordinates. -/
private theorem reshape_slice_eq_corner (a : S16x3x8x128.Idx → EReal) :
    shapeCast Cert.KernelIdeal.S16x3
        (extractStridedSlice S16x3x1x1 ![0, 0, 0, 0] a slices_S16x3x8x128_S16x3x1x1_0_0_0_0)
        shapeCasts_S16x3x1x1_S16x3 = corner a := by
  funext j
  refine (shapeCast_apply _ shapeCasts_S16x3x1x1_S16x3 j (ix4 (j 0) (j 1) (0 : Fin 1) (0 : Fin 1)) ?_).trans ?_
  · rw [Shape.rowMajor_val_four, Shape.rowMajor_val_two]
    show (((j 0).val * 3 + (j 1).val) * 1 + 0) * 1 + 0 = (j 0).val * 3 + (j 1).val
    omega
  · refine extractStridedSlice_apply _ a _ _ (ix4 (j 0) (j 1) (0 : Fin 8) (0 : Fin 128)) fun b => ?_
    match b with
    | ⟨0, _⟩ => exact (Nat.zero_add _).symm
    | ⟨1, _⟩ => exact (Nat.zero_add _).symm
    | ⟨2, _⟩ => rfl
    | ⟨3, _⟩ => rfl

/-- THE TAIL READ BACK: with the pipeline's arrays at any contents `A` and every other buffer as the region found it, the host
    operations after the region leave in the result buffer the common tail of the two output arrays' corner entries. -/
theorem after_tail (c : Dev nD) (A : (w : Fin 4) → Buf (Elt Ideal) ((spec0 w).arr.view.loc (c.tc : Thread nD τ)))
    (a2 a3 : S16x3x8x128.Idx → EReal) (h2 : A 2 = a2) (h3 : A 3 = a3) :
    StableHlo.after (hostOps1 (F := Ideal)) (Pipeline.withArrays spec0 c (V0 m c) A) (Proc.devRef .tc main_v9)
      = tail bcast_S_S16x3 reducesTo_S16x3_S_d0_1 h_S_ (corner a2) (corner a3) := by
  -- Run the twelve operations: the result buffer holds their composed term over the two output arrays as the region left them.
  show StableHlo.after hostOps1 _ (Proc.devRef .tc main_v9) = _
  after_results
  -- The two arrays read are the pipeline's arrays 2 and 3.
  rw [show Pipeline.withArrays spec0 c (V0 m c) A (Proc.devRef .tc main_v0_0) = a2 from
        (Pipeline.withArrays_arr spec0 launch0.win.arr_inj c (V0 m c) A 2).trans h2,
      show Pipeline.withArrays spec0 c (V0 m c) A (Proc.devRef .tc main_v0_1) = a3 from
        (Pipeline.withArrays_arr spec0 launch0.win.arr_inj c (V0 m c) A 3).trans h3]
  -- Each reshaped slice is the array's corner; the remaining operations are the tail's.
  rw [← reshape_slice_eq_corner a2, ← reshape_slice_eq_corner a3]
  rfl

end Cert.KernelIdeal.KTail

end
-- ==== Proof.KernelValue.lean ====
/-
  The kernel program's result as the common closed form.

  At grid point `t` the body sees block `t` of each argument array — one image's three planes — and stores, into block `t` of
  each output array, per channel a tile of one value: the corrected cyclic Huber total of the plane over `524288`, which the law
  `NK_eq_N` makes the reflected total's mean. The sixteen blocks tile each output array, so each output array ends as that
  mean spread over the tiles; the host operations after the region read one entry per tile and run the common tail.
-/
import proofs.«430997_j56822417326370_3_alg».proof.Proof.Gen.KernelIdeal.Frame
import proofs.«430997_j56822417326370_3_alg».proof.Proof.KernelPay
import proofs.«430997_j56822417326370_3_alg».proof.Proof.KernelTail
import proofs.«430997_j56822417326370_3_alg».proof.Proof.Spec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Huber Cert.Spec Cert.KernelIdeal.KTail

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The printed index maps over the grid: every window's block index is the grid point on the leading axis and zero on the
    others. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- A grid point is below sixteen. -/
theorem tlt (t : Fin cfg0.N) : t.val < 16 := t.isLt

/-- The image a grid point works on. -/
abbrev img (t : Fin cfg0.N) : Fin 16 := ⟨t.val, tlt t⟩

/-! ## The input blocks -/

/-- Block `t` of the first argument, an image of a real array: entry `y` is the array's at image `t`. -/
theorem iblk0 (c : Dev nD) (xr : S16x3x512x512.Idx → ℝ)
    (hx : m ((c.tc : Thread nD τ).loc main_arg0) = fun i => ((xr i : ℝ) : EReal)) (t : Fin cfg0.N) :
    iblk m c 0 t = fun y : S1x3x512x512.Idx => ((xr (ix4 (img t) (y 1) (y 2) (y 3)) : ℝ) : EReal) := by
  funext y
  show V m c main_arg0 (((cfg0.win 0).blk t).view.emb y) = _
  rw [V_main_arg0, hx]
  refine congrArg (fun i => ((xr i : ℝ) : EReal)) (funext fun a => Fin.ext ?_)
  obtain ⟨⟨e0, e1, e2, e3⟩, -, -, -⟩ := idx_facts t
  match a with
  | ⟨0, _⟩ => show win0_0.index t (0 : Fin 4) * 1 + 1 * (y 0).val = t.val; have hy : (y 0).val < 1 := (y 0).isLt; omega
  | ⟨1, _⟩ => show win0_0.index t (1 : Fin 4) * 3 + 1 * (y 1).val = (y 1).val; omega
  | ⟨2, _⟩ => show win0_0.index t (2 : Fin 4) * 512 + 1 * (y 2).val = (y 2).val; omega
  | ⟨3, _⟩ => show win0_0.index t (3 : Fin 4) * 512 + 1 * (y 3).val = (y 3).val; omega

/-- Block `t` of the second argument likewise. -/
theorem iblk1 (c : Dev nD) (tr : S16x3x512x512.Idx → ℝ)
    (ht : m ((c.tc : Thread nD τ).loc main_arg1) = fun i => ((tr i : ℝ) : EReal)) (t : Fin cfg0.N) :
    iblk m c 1 t = fun y : S1x3x512x512.Idx => ((tr (ix4 (img t) (y 1) (y 2) (y 3)) : ℝ) : EReal) := by
  funext y
  show V m c main_arg1 (((cfg0.win 1).blk t).view.emb y) = _
  rw [V_main_arg1, ht]
  refine congrArg (fun i => ((tr i : ℝ) : EReal)) (funext fun a => Fin.ext ?_)
  obtain ⟨-, ⟨e0, e1, e2, e3⟩, -, -⟩ := idx_facts t
  match a with
  | ⟨0, _⟩ => show win0_1.index t (0 : Fin 4) * 1 + 1 * (y 0).val = t.val; have hy : (y 0).val < 1 := (y 0).isLt; omega
  | ⟨1, _⟩ => show win0_1.index t (1 : Fin 4) * 3 + 1 * (y 1).val = (y 1).val; omega
  | ⟨2, _⟩ => show win0_1.index t (2 : Fin 4) * 512 + 1 * (y 2).val = (y 2).val; omega
  | ⟨3, _⟩ => show win0_1.index t (3 : Fin 4) * 512 + 1 * (y 3).val = (y 3).val; omega

/-! ## The output arrays -/

/-- A 16 × 3 array of per-plane values spread over the planes' 8 × 128 tiles. -/
def spread (M : FVec Ideal Cert.Spec.S16x3 .f32) : S16x3x8x128.Idx → EReal := fun i => M (ix2 (i 0) (i 1))

/-- Reading the tiles' corner entries gives the per-plane values back. -/
theorem corner_spread (M : FVec Ideal Cert.Spec.S16x3 .f32) : corner (spread M) = M := by
  funext j
  obtain ⟨b, c, rfl⟩ : ∃ (b : Fin 16) (c : Fin 3), j = ix2 b c := ⟨j 0, j 1, eq_ix2 j⟩
  rfl

/-- An index of an output array is in point `t`'s block iff each coordinate is in the block's range on its axis. -/
theorem mem_blk2 (t : Fin cfg0.N) (i : S16x3x8x128.Idx) :
    i ∈ ((cfg0.win 2).blk t).view.set ↔ ∀ a : Fin 4, win0_2.index t a * S1x3x8x128.size a ≤ (i a).val ∧ (i a).val < win0_2.index t a * S1x3x8x128.size a + S1x3x8x128.size a := by
  show i ∈ ((View.whole main_v0_0).slice (win0_2.rect t)).set ↔ _
  rw [View.set_slice_whole, Rect.mem_set_unit]
  exact Iff.rfl

theorem mem_blk3 (t : Fin cfg0.N) (i : S16x3x8x128.Idx) :
    i ∈ ((cfg0.win 3).blk t).view.set ↔ ∀ a : Fin 4, win0_3.index t a * S1x3x8x128.size a ≤ (i a).val ∧ (i a).val < win0_3.index t a * S1x3x8x128.size a + S1x3x8x128.size a := by
  show i ∈ ((View.whole main_v0_1).slice (win0_3.rect t)).set ↔ _
  rw [View.set_slice_whole, Rect.mem_set_unit]
  exact Iff.rfl

/-- Every index of the first output array is in the block of the point that is its image. -/
theorem cover2 (i : S16x3x8x128.Idx) : ∃ t : Fin cfg0.N, (cfg0.win 2).flush t = true ∧ i ∈ ((cfg0.win 2).blk t).view.set := by
  have h0 : (i 0).val < 16 := (i 0).isLt
  have h1 : (i 1).val < 3 := (i 1).isLt
  have h2 : (i 2).val < 8 := (i 2).isLt
  have h3 : (i 3).val < 128 := (i 3).isLt
  refine ⟨(⟨(i 0).val, h0⟩ : Fin grid0.N), flush0_2 _, ?_⟩
  rw [mem_blk2]
  obtain ⟨-, -, ⟨e0, e1, e2, e3⟩, -⟩ := idx_facts (⟨(i 0).val, h0⟩ : Fin grid0.N)
  intro a
  match a with
  | ⟨0, _⟩ => show win0_2.index _ (0 : Fin 4) * 1 ≤ (i 0).val ∧ (i 0).val < win0_2.index _ (0 : Fin 4) * 1 + 1; rw [e0]; show (i 0).val * 1 ≤ (i 0).val ∧ (i 0).val < (i 0).val * 1 + 1; omega
  | ⟨1, _⟩ => show win0_2.index _ (1 : Fin 4) * 3 ≤ (i 1).val ∧ (i 1).val < win0_2.index _ (1 : Fin 4) * 3 + 3; rw [e1]; omega
  | ⟨2, _⟩ => show win0_2.index _ (2 : Fin 4) * 8 ≤ (i 2).val ∧ (i 2).val < win0_2.index _ (2 : Fin 4) * 8 + 8; rw [e2]; omega
  | ⟨3, _⟩ => show win0_2.index _ (3 : Fin 4) * 128 ≤ (i 3).val ∧ (i 3).val < win0_2.index _ (3 : Fin 4) * 128 + 128; rw [e3]; omega

theorem cover3 (i : S16x3x8x128.Idx) : ∃ t : Fin cfg0.N, (cfg0.win 3).flush t = true ∧ i ∈ ((cfg0.win 3).blk t).view.set := by
  have h0 : (i 0).val < 16 := (i 0).isLt
  have h1 : (i 1).val < 3 := (i 1).isLt
  have h2 : (i 2).val < 8 := (i 2).isLt
  have h3 : (i 3).val < 128 := (i 3).isLt
  refine ⟨(⟨(i 0).val, h0⟩ : Fin grid0.N), flush0_3 _, ?_⟩
  rw [mem_blk3]
  obtain ⟨-, -, -, ⟨e0, e1, e2, e3⟩⟩ := idx_facts (⟨(i 0).val, h0⟩ : Fin grid0.N)
  intro a
  match a with
  | ⟨0, _⟩ => show win0_3.index _ (0 : Fin 4) * 1 ≤ (i 0).val ∧ (i 0).val < win0_3.index _ (0 : Fin 4) * 1 + 1; rw [e0]; show (i 0).val * 1 ≤ (i 0).val ∧ (i 0).val < (i 0).val * 1 + 1; omega
  | ⟨1, _⟩ => show win0_3.index _ (1 : Fin 4) * 3 ≤ (i 1).val ∧ (i 1).val < win0_3.index _ (1 : Fin 4) * 3 + 3; rw [e1]; omega
  | ⟨2, _⟩ => show win0_3.index _ (2 : Fin 4) * 8 ≤ (i 2).val ∧ (i 2).val < win0_3.index _ (2 : Fin 4) * 8 + 8; rw [e2]; omega
  | ⟨3, _⟩ => show win0_3.index _ (3 : Fin 4) * 128 ≤ (i 3).val ∧ (i 3).val < win0_3.index _ (3 : Fin 4) * 128 + 128; rw [e3]; omega

section Real
variable (c : Dev nD) (xr tr : S16x3x512x512.Idx → ℝ)

/-- The array index under entry `(0, cc, i, j)` of point `t`'s block of an output window. -/
theorem emb2 (t : Fin cfg0.N) (cc : Fin 3) (i : Fin 8) (j : Fin 128) :
    ((cfg0.win 2).blk t).view.emb (ix4 (0 : Fin 1) cc i j) = ix4 (img t) cc i j := by
  funext a; apply Fin.ext
  obtain ⟨-, -, ⟨e0, e1, e2, e3⟩, -⟩ := idx_facts t
  match a with
  | ⟨0, _⟩ => show win0_2.index t (0 : Fin 4) * 1 + 1 * 0 = t.val; omega
  | ⟨1, _⟩ => show win0_2.index t (1 : Fin 4) * 3 + 1 * cc.val = cc.val; omega
  | ⟨2, _⟩ => show win0_2.index t (2 : Fin 4) * 8 + 1 * i.val = i.val; omega
  | ⟨3, _⟩ => show win0_2.index t (3 : Fin 4) * 128 + 1 * j.val = j.val; omega

theorem emb3 (t : Fin cfg0.N) (cc : Fin 3) (i : Fin 8) (j : Fin 128) :
    ((cfg0.win 3).blk t).view.emb (ix4 (0 : Fin 1) cc i j) = ix4 (img t) cc i j := by
  funext a; apply Fin.ext
  obtain ⟨-, -, -, ⟨e0, e1, e2, e3⟩⟩ := idx_facts t
  match a with
  | ⟨0, _⟩ => show win0_3.index t (0 : Fin 4) * 1 + 1 * 0 = t.val; omega
  | ⟨1, _⟩ => show win0_3.index t (1 : Fin 4) * 3 + 1 * cc.val = cc.val; omega
  | ⟨2, _⟩ => show win0_3.index t (2 : Fin 4) * 8 + 1 * i.val = i.val; omega
  | ⟨3, _⟩ => show win0_3.index t (3 : Fin 4) * 128 + 1 * j.val = j.val; omega

/-- WHAT POINT `t` WRITES BACK to the first output array is block `t` of the difference image's means, spread. -/
theorem flushed2_eq (hx : m ((c.tc : Thread nD τ).loc main_arg0) = fun i => ((xr i : ℝ) : EReal))
    (ht : m ((c.tc : Thread nD τ).loc main_arg1) = fun i => ((tr i : ℝ) : EReal)) (t : Fin cfg0.N) :
    (dats m 0 c).flushed 2 t = ((cfg0.win 2).blk t).view.read (Elt Ideal)
      (spread (meanOf fun b cc h w => plane xr b cc h w - plane tr b cc h w)) := by
  show (cfg0.win 2).cut (grid0.coords t) ((dats m 0 c).after 2 t) = _
  rw [after0_2]
  unfold out0_2
  rw [View.canon_unit_zero hz4]
  simp only [View.ld_unit_zero (S := S1x3x512x512) hz4]
  rw [iblk0 m c xr hx t, iblk1 m c tr ht t]
  funext y
  obtain ⟨y0, cc, i, j, rfl⟩ : ∃ (y0 : Fin 1) (cc : Fin 3) (i : Fin 8) (j : Fin 128), y = ix4 y0 cc i j :=
    ⟨y 0, y 1, y 2, y 3, eq_ix4 y⟩
  obtain rfl : y0 = 0 := Subsingleton.elim _ _
  refine (Pay.pay_diff (fun y => xr (ix4 (img t) (y 1) (y 2) (y 3))) (fun y => tr (ix4 (img t) (y 1) (y 2) (y 3))) cc i j).trans ?_
  rw [NK_eq_N]
  have e : ((cfg0.win 2).blk t).view.read (Elt Ideal) (spread (meanOf fun b cc h w => plane xr b cc h w - plane tr b cc h w)) (ix4 (0 : Fin 1) cc i j)
      = spread (meanOf fun b cc h w => plane xr b cc h w - plane tr b cc h w) (ix4 (img t) cc i j) :=
    congrArg (spread (meanOf fun b cc h w => plane xr b cc h w - plane tr b cc h w)) (emb2 t cc i j)
  refine Eq.trans ?_ e.symm
  rfl

/-- WHAT POINT `t` WRITES BACK to the second output array is block `t` of the target image's means, spread. -/
theorem flushed3_eq (ht : m ((c.tc : Thread nD τ).loc main_arg1) = fun i => ((tr i : ℝ) : EReal)) (t : Fin cfg0.N) :
    (dats m 0 c).flushed 3 t = ((cfg0.win 3).blk t).view.read (Elt Ideal) (spread (meanOf fun b cc => plane tr b cc)) := by
  show (cfg0.win 3).cut (grid0.coords t) ((dats m 0 c).after 3 t) = _
  rw [after0_3]
  unfold out0_3
  rw [View.canon_unit_zero hz4]
  simp only [View.ld_unit_zero (S := S1x3x512x512) hz4]
  rw [iblk1 m c tr ht t]
  funext y
  obtain ⟨y0, cc, i, j, rfl⟩ : ∃ (y0 : Fin 1) (cc : Fin 3) (i : Fin 8) (j : Fin 128), y = ix4 y0 cc i j :=
    ⟨y 0, y 1, y 2, y 3, eq_ix4 y⟩
  obtain rfl : y0 = 0 := Subsingleton.elim _ _
  refine (Pay.pay_norm (fun y => tr (ix4 (img t) (y 1) (y 2) (y 3))) cc i j).trans ?_
  rw [NK_eq_N]
  have e : ((cfg0.win 3).blk t).view.read (Elt Ideal) (spread (meanOf fun b cc => plane tr b cc)) (ix4 (0 : Fin 1) cc i j)
      = spread (meanOf fun b cc => plane tr b cc) (ix4 (img t) cc i j) :=
    congrArg (spread (meanOf fun b cc => plane tr b cc)) (emb3 t cc i j)
  refine Eq.trans ?_ e.symm
  rfl

/-- The first output array after the run. -/
theorem final2 (hx : m ((c.tc : Thread nD τ).loc main_arg0) = fun i => ((xr i : ℝ) : EReal))
    (ht : m ((c.tc : Thread nD τ).loc main_arg1) = fun i => ((tr i : ℝ) : EReal)) : (dats m 0 c).arrAt 2 cfg0.N = spread (meanOf fun b cc h w => plane xr b cc h w - plane tr b cc h w) :=
  (dats m 0 c).arrAt_eq_of_cover 2 _ (fun t _ => flushed2_eq m c xr tr hx ht t) cover2

/-- The second output array after the run. -/
theorem final3 (ht : m ((c.tc : Thread nD τ).loc main_arg1) = fun i => ((tr i : ℝ) : EReal)) : (dats m 0 c).arrAt 3 cfg0.N = spread (meanOf fun b cc => plane tr b cc) :=
  (dats m 0 c).arrAt_eq_of_cover 3 _ (fun t _ => flushed3_eq m c tr ht t) cover3

end Real

/-! ## The run, read -/

/-- The result buffer is unscoped and is no window's array. -/
theorem main_v9_rest : main_v9 ∈ Pipeline.restRefs sig (cfgs 0).spec :=
  Pipeline.mem_restRefs_of main_v9 rfl (fun w => by fin_cases w <;> decide)

/-- THE KERNEL PROGRAM'S RUN on images of real arrays: the result buffer ends at the common closed form, the arguments unchanged. -/
theorem run (xr tr : Dev nD → S16x3x512x512.Idx → ℝ)
    (hx : ∀ c : Dev nD, m ((c.tc : Thread nD τ).loc main_arg0) = fun i => ((xr c i : ℝ) : EReal))
    (ht : ∀ c : Dev nD, m ((c.tc : Thread nD τ).loc main_arg1) = fun i => ((tr c i : ℝ) : EReal)) :
    θ_run defs (onTc (τ := τ) (main (F := Ideal))) ⟨m, fun _ => 0, ρ⟩ fun r => ∀ c : Dev nD,
      r.2.mem ((c.tc : Thread nD τ).loc main_v9) = result bcast_S_S16x3 reducesTo_S16x3_S_d0_1 h_S_ (xr c) (tr c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v9 main_v9_rest).trans ?_
    unfold Pipeline.afterTail₀
    show StableHlo.after hostOps1 _ (Proc.devRef .tc main_v9) = _
    rw [after_tail m c _ _ _ (final2 m c (xr c) (tr c) (hx c) (ht c)) (final3 m c (tr c) (ht c)), corner_spread, corner_spread]
    rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.KValue

end
-- ==== Proof.lean ====
/-
  The certificate: the kernel and its jnp reference compute one function of finite inputs over the extended reals.

  Both programs take two f32[16, 3, 512, 512] arrays (an image batch and its target) and return one number: over the 48 image
  planes, the mean of the ratio of the difference image's mean Huber value of its reflected finite differences to the target
  image's, with `f32(0.0001)` added to the denominator. The reference forms the reflected differences by slicing and joining and
  takes one mean over the stacked 1024 × 512 plane; the kernel takes cyclic differences with a rotation, corrects the one wrong
  column and row of each total after summing, and uses that the difference of the two images' differences is the difference
  image's. With every entry finite — the precondition — all intermediate values are images of reals, where subtraction cancels
  and Huber's function is even, and the two totals agree (Proof/Huber.lean `NK_eq_N`, `sum_GR`, `GR_sub`); the rest of both
  programs is the same host arithmetic. The three frame claims are the generated frame runs; the idealization rewrote nothing.
-/
import proofs.«430997_j56822417326370_3_alg».proof.Defs
import proofs.«430997_j56822417326370_3_alg».proof.Proof.Gen.Kernel
import proofs.«430997_j56822417326370_3_alg».proof.Proof.Gen.Kernel.Skeleton
import proofs.«430997_j56822417326370_3_alg».proof.Proof.Gen.Kernel.Launch
import proofs.«430997_j56822417326370_3_alg».proof.Proof.Gen.Kernel.Points
import proofs.«430997_j56822417326370_3_alg».proof.Proof.Gen.Kernel.Frame
import proofs.«430997_j56822417326370_3_alg».proof.Proof.Gen.KernelIdeal
import proofs.«430997_j56822417326370_3_alg».proof.Proof.Gen.KernelIdeal.Skeleton
import proofs.«430997_j56822417326370_3_alg».proof.Proof.Gen.KernelIdeal.Launch
import proofs.«430997_j56822417326370_3_alg».proof.Proof.Gen.KernelIdeal.Points
import proofs.«430997_j56822417326370_3_alg».proof.Proof.Gen.KernelIdeal.Frame
import proofs.«430997_j56822417326370_3_alg».proof.Proof.Gen.ReferenceIdeal
import proofs.«430997_j56822417326370_3_alg».proof.Proof.Gen.Pre_finite_inputs
import proofs.«430997_j56822417326370_3_alg».proof.Proof.Gen.ReferenceIdeal.Run
import proofs.«430997_j56822417326370_3_alg».proof.Proof.Finite
import proofs.«430997_j56822417326370_3_alg».proof.Proof.RefValue
import proofs.«430997_j56822417326370_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition both argument arrays are images of real arrays (Proof/Finite.lean); on those the kernel's run ends
    at the common closed form (Proof/KernelValue.lean) and so does the reference's (Proof/RefValue.lean), the arguments agreeing. -/
theorem algebraic : Cert.algebraic_KernelIdeal_ReferenceIdeal := by
  intro m ρ m' ρ' hpre hagree
  have hxe : ∀ c : Dev Cert.KernelIdeal.nD, ∃ xr : Cert.KernelIdeal.S16x3x512x512.Idx → ℝ,
      m ((c.tc : Thread Cert.KernelIdeal.nD Cert.KernelIdeal.τ).loc Cert.KernelIdeal.main_arg0) = fun i => ((xr i : ℝ) : EReal) :=
    fun c => (Cert.Finite.real_of_pre _ _ (hpre c)).1
  have hte : ∀ c : Dev Cert.KernelIdeal.nD, ∃ tr : Cert.KernelIdeal.S16x3x512x512.Idx → ℝ,
      m ((c.tc : Thread Cert.KernelIdeal.nD Cert.KernelIdeal.τ).loc Cert.KernelIdeal.main_arg1) = fun i => ((tr i : ℝ) : EReal) :=
    fun c => (Cert.Finite.real_of_pre _ _ (hpre c)).2
  choose xr hx using hxe
  choose tr ht using hte
  refine ⟨fun c => Cert.Spec.result Cert.KernelIdeal.Gen.bcast_S_S16x3 Cert.KernelIdeal.Gen.reducesTo_S16x3_S_d0_1
      Cert.KernelIdeal.Gen.h_S_ (xr c) (tr c), Cert.KernelIdeal.KValue.run m ρ xr tr hx ht, ?_⟩
  refine (θ_run Cert.ReferenceIdeal.defs _ _).mono (fun _ h c => ⟨(h c).1.trans ?_, (h c).2⟩)
    (Cert.ReferenceIdeal.Value.run (F := Ideal) m' ρ')
  exact Cert.ReferenceIdeal.RefValue.res_coe m' c (xr c) (tr c) ((hagree c).1.trans (hx c)) ((hagree c).2.trans (ht c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
